-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32000x256 : Shape := ⟨2, ![32000, 256]⟩
abbrev S512000x128 : Shape := ⟨2, ![512000, 128]⟩
abbrev S2x512000 : Shape := ⟨2, ![2, 512000]⟩
abbrev S256x128 : Shape := ⟨2, ![256, 128]⟩
abbrev S384x128 : Shape := ⟨2, ![384, 128]⟩
abbrev S128 : Shape := ⟨1, ![128]⟩
abbrev S128x128 : Shape := ⟨2, ![128, 128]⟩
abbrev S_ : Shape := ⟨0, ![]⟩

class Facts : Prop where
  bcast_S_S32000x256 : S_.BroadcastsInDim S32000x256 (![] : Fin 0 → Fin S32000x256.rank)
  reducesTo_S32000x256_S_d0_1 : S32000x256.ReducesTo [0, 1] S_
  h_S_ : 0 < S_.numel
  bcast_S_S512000x128 : S_.BroadcastsInDim S512000x128 (![] : Fin 0 → Fin S512000x128.rank)
  reducesTo_S512000x128_S_d0_1 : S512000x128.ReducesTo [0, 1] S_
  bcast_S_S256x128 : S_.BroadcastsInDim S256x128 (![] : Fin 0 → Fin S256x128.rank)
  reducesTo_S256x128_S_d0_1 : S256x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S2x512000 : S_.BroadcastsInDim S2x512000 (![] : Fin 0 → Fin S2x512000.rank)
  reducesTo_S2x512000_S_d0_1 : S2x512000.ReducesTo [0, 1] S_

variable [Facts]

def fn_part3 {F : FTy → Type} [FloatOps F] (main_arg2 : IVec S2x512000 32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_c_20 : IVec S_ 32 := constantI S_ 32 0#32
  let main_v54 : IVec S2x512000 32 := broadcastInDim S2x512000 ![] bcast_S_S2x512000 main_c_20
  let main_v55 : IVec S2x512000 1 := cmpi .sge main_arg2 main_v54
  let main_c_21 : IVec S_ 32 := constantI S_ 32 32000#32
  let main_v56 : IVec S2x512000 32 := broadcastInDim S2x512000 ![] bcast_S_S2x512000 main_c_21
  let main_v57 : IVec S2x512000 1 := cmpi .slt main_arg2 main_v56
  let main_v58 : IVec S2x512000 1 := andi main_v55 main_v57
  let main_c_22 : IVec S_ 1 := constantI S_ 1 1#1
  let main_v59 : IVec S_ 1 := (fun x v => Host.reduce IntOp.andi x v reducesTo_S2x512000_S_d0_1 h_S_) main_v58 main_c_22
  let main_v60 : IVec S_ 1 := andi main_v53 main_v59
  main_v60

def fn_part2 {F : FTy → Type} [FloatOps F] (main_arg2 : IVec S2x512000 32) (main_arg8 : FVec F S128x128 .f32) (main_arg9 : FVec F S128 .f32) (main_arg10 : FVec F S128 .f32) (main_arg11 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg2 main_v48 main_v49 main_v50

def fn_part1 {F : FTy → Type} [FloatOps F] (main_arg2 : IVec S2x512000 32) (main_arg5 : FVec F S128 .f32) (main_arg6 : FVec F S128x128 .f32) (main_arg7 : FVec F S128 .f32) (main_arg8 : FVec F S128x128 .f32) (main_arg9 : FVec F S128 .f32) (main_arg10 : FVec F S128 .f32) (main_arg11 : FVec F S128 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg2 main_arg8 main_arg9 main_arg10 main_arg11 main_v33

def fn {F : FTy → Type} [FloatOps F] (main_arg0 : FVec F S32000x256 .f32) (main_arg1 : FVec F S512000x128 .f32) (main_arg2 : IVec S2x512000 32) (main_arg3 : FVec F S256x128 .f32) (main_arg4 : FVec F S384x128 .f32) (main_arg5 : FVec F S128 .f32) (main_arg6 : FVec F S128x128 .f32) (main_arg7 : FVec F S128 .f32) (main_arg8 : FVec F S128x128 .f32) (main_arg9 : FVec F S128 .f32) (main_arg10 : FVec F S128 .f32) (main_arg11 : FVec F S128 .f32) : IVec S_ 1 :=
  let main_v0 : FVec F S32000x256 .f32 := Host.absf main_arg0
  let main_cst : FVec F S_ .f32 := constant S_ .f32 0x7F800000#32
  let main_v1 : FVec F S32000x256 .f32 := broadcastInDim S32000x256 ![] bcast_S_S32000x256 main_cst
  let main_v2 : IVec S32000x256 1 := cmpf .olt main_v0 main_v1
  let main_c : IVec S_ 1 := constantI S_ 1 1#1
  let main_v3 : IVec S_ 1 := (fun x v => Host.reduce IntOp.andi x v reducesTo_S32000x256_S_d0_1 h_S_) main_v2 main_c
  let main_v4 : FVec F S512000x128 .f32 := Host.absf main_arg1
  let main_cst_0 : FVec F S_ .f32 := constant S_ .f32 0x7F800000#32
  let main_v5 : FVec F S512000x128 .f32 := broadcastInDim S512000x128 ![] bcast_S_S512000x128 main_cst_0
  let main_v6 : IVec S512000x128 1 := cmpf .olt main_v4 main_v5
  let main_c_1 : IVec S_ 1 := constantI S_ 1 1#1
  let main_v7 : IVec S_ 1 := (fun x v => Host.reduce IntOp.andi x v reducesTo_S512000x128_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S384x128 .f32 := Host.absf main_arg4
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg2 main_arg5 main_arg6 main_arg7 main_arg8 main_arg9 main_arg10 main_arg11 main_v13 main_v16
-- ==== Kernel.lean ====
abbrev S32000x256 : Shape := ⟨2, ![32000, 256]⟩
abbrev S512000x128 : Shape := ⟨2, ![512000, 128]⟩
abbrev S2x512000 : Shape := ⟨2, ![2, 512000]⟩
abbrev S256x128 : Shape := ⟨2, ![256, 128]⟩
abbrev S384x128 : Shape := ⟨2, ![384, 128]⟩
abbrev S128 : Shape := ⟨1, ![128]⟩
abbrev S128x128 : Shape := ⟨2, ![128, 128]⟩
abbrev S32000x128 : Shape := ⟨2, ![32000, 128]⟩
abbrev S4000x256 : Shape := ⟨2, ![4000, 256]⟩
abbrev S4000x128 : Shape := ⟨2, ![4000, 128]⟩
abbrev S1x512000 : Shape := ⟨2, ![1, 512000]⟩
abbrev S512000 : Shape := ⟨1, ![512000]⟩
abbrev S_ : Shape := ⟨0, ![]⟩
abbrev S512000x1 : Shape := ⟨2, ![512000, 1]⟩
abbrev S1 : Shape := ⟨1, ![1]⟩
abbrev S1x1 : Shape := ⟨2, ![1, 1]⟩
abbrev S4096x128 : Shape := ⟨2, ![4096, 128]⟩
abbrev S4096x384 : Shape := ⟨2, ![4096, 384]⟩
abbrev S1x128 : Shape := ⟨2, ![1, 128]⟩
abbrev S4096 : Shape := ⟨1, ![4096]⟩
abbrev S4096x1 : Shape := ⟨2, ![4096, 1]⟩

abbrev nBuf : Space → Nat
  | .hbm => 64
  | .vmem => 21
  | .smem => 0
  | _ => 0

abbrev bufTy : (tb : Table) → Fin (tcTables nBuf tb) → BufTy
  | .hbm, ⟨0, _⟩ => ⟨S32000x256, .f32⟩
  | .hbm, ⟨1, _⟩ => ⟨S512000x128, .f32⟩
  | .hbm, ⟨2, _⟩ => ⟨S2x512000, .i32⟩
  | .hbm, ⟨3, _⟩ => ⟨S256x128, .f32⟩
  | .hbm, ⟨4, _⟩ => ⟨S384x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S32000x128, .f32⟩
  | .hbm, ⟨13, _⟩ => ⟨S1x512000, .i32⟩
  | .hbm, ⟨14, _⟩ => ⟨S512000, .i32⟩
  | .hbm, ⟨15, _⟩ => ⟨S1x512000, .i32⟩
  | .hbm, ⟨16, _⟩ => ⟨S512000, .i32⟩
  | .hbm, ⟨17, _⟩ => ⟨S_, .i32⟩
  | .hbm, ⟨18, _⟩ => ⟨S512000, .i32⟩
  | .hbm, ⟨19, _⟩ => ⟨S512000, .i1⟩
  | .hbm, ⟨20, _⟩ => ⟨S_, .i32⟩
  | .hbm, ⟨21, _⟩ => ⟨S512000, .i32⟩
  | .hbm, ⟨22, _⟩ => ⟨S512000, .i32⟩
  | .hbm, ⟨23, _⟩ => ⟨S512000, .i32⟩
  | .hbm, ⟨24, _⟩ => ⟨S512000x1, .i32⟩
  | .hbm, ⟨25, _⟩ => ⟨S1, .i32⟩
  | .hbm, ⟨26, _⟩ => ⟨S_, .i32⟩
  | .hbm, ⟨27, _⟩ => ⟨S512000x1, .i32⟩
  | .hbm, ⟨28, _⟩ => ⟨S512000x1, .i1⟩
  | .hbm, ⟨29, _⟩ => ⟨S1x1, .i32⟩
  | .hbm, ⟨30, _⟩ => ⟨S512000x1, .i32⟩
  | .hbm, ⟨31, _⟩ => ⟨S512000x1, .i1⟩
  | .hbm, ⟨32, _⟩ => ⟨S512000x1, .i1⟩
  | .hbm, ⟨33, _⟩ => ⟨S_, .i1⟩
  | .hbm, ⟨34, _⟩ => ⟨S512000, .i1⟩
  | .hbm, ⟨35, _⟩ => ⟨S512000x128, .f32⟩
  | .hbm, ⟨36, _⟩ => ⟨S512000x128, .i1⟩
  | .hbm, ⟨37, _⟩ => ⟨S_, .f32⟩
  | .hbm, ⟨38, _⟩ => ⟨S512000x128, .f32⟩
  | .hbm, ⟨39, _⟩ => ⟨S512000x128, .f32⟩
  | .hbm, ⟨40, _⟩ => ⟨S_, .i32⟩
  | .hbm, ⟨41, _⟩ => ⟨S512000, .i32⟩
  | .hbm, ⟨42, _⟩ => ⟨S512000, .i1⟩
  | .hbm, ⟨43, _⟩ => ⟨S_, .i32⟩
  | .hbm, ⟨44, _⟩ => ⟨S512000, .i32⟩
  | .hbm, ⟨45, _⟩ => ⟨S512000, .i32⟩
  | .hbm, ⟨46, _⟩ => ⟨S512000, .i32⟩
  | .hbm, ⟨47, _⟩ => ⟨S512000x1, .i32⟩
  | .hbm, ⟨48, _⟩ => ⟨S1, .i32⟩
  | .hbm, ⟨49, _⟩ => ⟨S_, .i32⟩
  | .hbm, ⟨50, _⟩ => ⟨S512000x1, .i32⟩
  | .hbm, ⟨51, _⟩ => ⟨S512000x1, .i1⟩
  | .hbm, ⟨52, _⟩ => ⟨S1x1, .i32⟩
  | .hbm, ⟨53, _⟩ => ⟨S512000x1, .i32⟩
  | .hbm, ⟨54, _⟩ => ⟨S512000x1, .i1⟩
  | .hbm, ⟨55, _⟩ => ⟨S512000x1, .i1⟩
  | .hbm, ⟨56, _⟩ => ⟨S_, .i1⟩
  | .hbm, ⟨57, _⟩ => ⟨S512000, .i1⟩
  | .hbm, ⟨58, _⟩ => ⟨S512000x128, .f32⟩
  | .hbm, ⟨59, _⟩ => ⟨S512000x128, .i1⟩
  | .hbm, ⟨60, _⟩ => ⟨S_, .f32⟩
  | .hbm, ⟨61, _⟩ => ⟨S512000x128, .f32⟩
  | .hbm, ⟨62, _⟩ => ⟨S512000x128, .f32⟩
  | .hbm, ⟨63, _⟩ => ⟨S512000x128, .f32⟩
  | .local _ .vmem, ⟨0, _⟩ => ⟨S4000x256, .f32⟩
  | .local _ .vmem, ⟨1, _⟩ => ⟨S4000x256, .f32⟩
  | .local _ .vmem, ⟨2, _⟩ => ⟨S256x128, .f32⟩
  | .local _ .vmem, ⟨3, _⟩ => ⟨S4000x128, .f32⟩
  | .local _ .vmem, ⟨4, _⟩ => ⟨S4000x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S384x128, .f32⟩
  | .local _ .vmem, ⟨12, _⟩ => ⟨S128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S128, .f32⟩
  | .local _ .vmem, ⟨17, _⟩ => ⟨S128, .f32⟩
  | .local _ .vmem, ⟨18, _⟩ => ⟨S128, .f32⟩
  | .local _ .vmem, ⟨19, _⟩ => ⟨S4096x128, .f32⟩
  | .local _ .vmem, ⟨20, _⟩ => ⟨S4096x128, .f32⟩
  | _, _ => ⟨S32000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v5 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v6 : Ref sig .tc := ⟨.hbm, 62, rfl⟩
abbrev main_v7 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg10_0 : Ref sig .tc := ⟨.vmem, 18, rfl⟩
abbrev cc1_stg11_0 : Ref sig .tc := ⟨.vmem, 19, rfl⟩
abbrev cc1_stg11_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem11_0 : DmaSem sig := 19
abbrev cc1_sem11_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S384x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S4096x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S4000x128_S4000x128_0_0 : ∀ a, (![0, 0] : Fin 2 → Nat) a + S4000x128.size a ≤ S4000x128.size a
  h_S4000x128 : 0 < S4000x128.numel
  slices_S2x512000_S1x512000_0_0 : S2x512000.Slices ![0, 0] S1x512000
  shapeCasts_S1x512000_S512000 : S1x512000.ShapeCasts S512000
  slices_S2x512000_S1x512000_1_0 : S2x512000.Slices ![1, 0] S1x512000
  bcast_S_S512000 : S_.BroadcastsInDim S512000 (![] : Fin 0 → Fin S512000.rank)
  bcast_S512000_S512000x1_0 : S512000.BroadcastsInDim S512000x1 (![0] : Fin 1 → Fin S512000x1.rank)
  bcast_S_S512000x1 : S_.BroadcastsInDim S512000x1 (![] : Fin 0 → Fin S512000x1.rank)
  bcast_S1_S1x1_1 : S1.BroadcastsInDim S1x1 (![1] : Fin 1 → Fin S1x1.rank)
  bcast_S1x1_S512000x1_0_1 : S1x1.BroadcastsInDim S512000x1 (![0, 1] : Fin 2 → Fin S512000x1.rank)
  reducesTo_S512000x1_S512000_d1 : S512000x1.ReducesTo [1] S512000
  h_S_ : 0 < S_.numel
  bcast_S512000_S512000x128_0 : S512000.BroadcastsInDim S512000x128 (![0] : Fin 1 → Fin S512000x128.rank)
  bcast_S_S512000x128 : S_.BroadcastsInDim S512000x128 (![] : Fin 0 → Fin S512000x128.rank)
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  concatenates_S4096x128_S4096x128_S4096x128_S4096x384_d1 : Shape.Concatenates [S4096x128, S4096x128, S4096x128] S4096x384 1
  inb_S384x128_S384x128_0_0 : ∀ a, (![0, 0] : Fin 2 → Nat) a + S384x128.size a ≤ S384x128.size a
  h_S384x128 : 0 < S384x128.numel
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  inb_S128x128_S128x128_0_0 : ∀ a, (![0, 0] : Fin 2 → Nat) a + S128x128.size a ≤ S128x128.size a
  h_S128x128 : 0 < S128x128.numel
  reduces_S4096x128_S4096 : S4096x128.Reduces [1] S4096
  shapeCasts_S4096_S4096x1 : S4096.ShapeCasts S4096x1
  broadcasts_S4096x1_S4096x128 : S4096x1.Broadcasts S4096x128
  dot_S4000x256_S256x128_S4000x128_1_0_0_1_n_n_wf : DotDims.WF S4000x256 S256x128 S4000x128 [1] [0] [0] [1] [] []
  gather_S32000x128_S512000x1_S512000x128_1_0_n_n_0_1_1128_wf : GatherDims.WF S32000x128 S512000x1 S512000x128 [1] [0] [] [0] [] 1 ![1, 128]
  dot_S4096x384_S384x128_S4096x128_1_0_0_1_n_n_wf : DotDims.WF S4096x384 S384x128 S4096x128 [1] [0] [0] [1] [] []
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S32000x256.size a
  hwx0_0 : ∀ i : grid0.Coords, EltTy.bits .f32 = 32 ∨ (Rect.block (s := S32000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S32000x128.size a
  hwx0_2 : ∀ i : grid0.Coords, EltTy.bits .f32 = 32 ∨ (Rect.block (s := S32000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S512000x128.size a
  hwx1_0 : ∀ i : grid1.Coords, EltTy.bits .f32 = 32 ∨ (Rect.block (s := S512000x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S512000x128.size a
  hwx1_1 : ∀ i : grid1.Coords, EltTy.bits .f32 = 32 ∨ (Rect.block (s := S512000x128) S4096x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S512000x128.size a
  hwx1_2 : ∀ i : grid1.Coords, EltTy.bits .f32 = 32 ∨ (Rect.block (s := S512000x128) S4096x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S384x128.size a ≤ S384x128.size a
  hwx1_3 : ∀ i : grid1.Coords, EltTy.bits .f32 = 32 ∨ (Rect.block (s := S384x128) S384x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128.size a ≤ S128.size a
  hwx1_9 : ∀ i : grid1.Coords, EltTy.bits .f32 = 32 ∨ (Rect.block (s := S128) S128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128.size a ≤ S128.size a
  hwx1_10 : ∀ i : grid1.Coords, EltTy.bits .f32 = 32 ∨ (Rect.block (s := S128) S128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S4096x128.size a ≤ S512000x128.size a
  hwx1_11 : ∀ i : grid1.Coords, EltTy.bits .f32 = 32 ∨ (Rect.block (s := S512000x128) S4096x128.size (cc1_transform_11 i) (hinb1_11 i)).WholeWords (EltTy.packing .f32)

variable [Facts₀]

def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def gather_S32000x128_S512000x1_S512000x128_1_0_n_n_0_1_1128 : GatherDims S32000x128 S512000x1 S512000x128 where
  offsetDims := [1]
  collapsedSliceDims := [0]
  operandBatchingDims := []
  startIndicesBatchingDims := []
  startIndexMap := [0]
  indexVectorDim := 1
  sliceSizes := ![1, 128]
  wf := gather_S32000x128_S512000x1_S512000x128_1_0_n_n_0_1_1128_wf
def dot_S4096x384_S384x128_S4096x128_1_0_0_1_n_n : DotDims S4096x384 S384x128 S4096x128 where
  lhsContracting := [1]
  rhsContracting := [0]
  lhsNonContracting := [0]
  rhsNonContracting := [1]
  lhsBatch := []
  rhsBatch := []
  wf := dot_S4096x384_S384x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v5) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S4096x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S384x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg9) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg10) S128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg11) S128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v7) S4096x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S32000x256 : Shape := ⟨2, ![32000, 256]⟩
abbrev S512000x128 : Shape := ⟨2, ![512000, 128]⟩
abbrev S2x512000 : Shape := ⟨2, ![2, 512000]⟩
abbrev S256x128 : Shape := ⟨2, ![256, 128]⟩
abbrev S384x128 : Shape := ⟨2, ![384, 128]⟩
abbrev S128 : Shape := ⟨1, ![128]⟩
abbrev S128x128 : Shape := ⟨2, ![128, 128]⟩
abbrev S32000x128 : Shape := ⟨2, ![32000, 128]⟩
abbrev S1x512000 : Shape := ⟨2, ![1, 512000]⟩
abbrev S512000 : Shape := ⟨1, ![512000]⟩
abbrev S_ : Shape := ⟨0, ![]⟩
abbrev S512000x1 : Shape := ⟨2, ![512000, 1]⟩
abbrev S512000x384 : Shape := ⟨2, ![512000, 384]⟩
abbrev S1x128 : Shape := ⟨2, ![1, 128]⟩

abbrev nBuf : Space → Nat
  | .hbm => 84
  | .vmem => 0
  | .smem => 0
  | _ => 0

abbrev bufTy : (tb : Table) → Fin (tcTables nBuf tb) → BufTy
  | .hbm, ⟨0, _⟩ => ⟨S32000x256, .f32⟩
  | .hbm, ⟨1, _⟩ => ⟨S512000x128, .f32⟩
  | .hbm, ⟨2, _⟩ => ⟨S2x512000, .i32⟩
  | .hbm, ⟨3, _⟩ => ⟨S256x128, .f32⟩
  | .hbm, ⟨4, _⟩ => ⟨S384x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S32000x128, .f32⟩
  | .hbm, ⟨13, _⟩ => ⟨S1x512000, .i32⟩
  | .hbm, ⟨14, _⟩ => ⟨S512000, .i32⟩
  | .hbm, ⟨15, _⟩ => ⟨S1x512000, .i32⟩
  | .hbm, ⟨16, _⟩ => ⟨S512000, .i32⟩
  | .hbm, ⟨17, _⟩ => ⟨S_, .i32⟩
  | .hbm, ⟨18, _⟩ => ⟨S512000, .i32⟩
  | .hbm, ⟨19, _⟩ => ⟨S512000, .i1⟩
  | .hbm, ⟨20, _⟩ => ⟨S_, .i32⟩
  | .hbm, ⟨21, _⟩ => ⟨S512000, .i32⟩
  | .hbm, ⟨22, _⟩ => ⟨S512000, .i32⟩
  | .hbm, ⟨23, _⟩ => ⟨S512000, .i32⟩
  | .hbm, ⟨24, _⟩ => ⟨S512000x1, .i32⟩
  | .hbm, ⟨25, _⟩ => ⟨S512000x128, .f32⟩
  | .hbm, ⟨26, _⟩ => ⟨S_, .i32⟩
  | .hbm, ⟨27, _⟩ => ⟨S512000, .i32⟩
  | .hbm, ⟨28, _⟩ => ⟨S512000, .i1⟩
  | .hbm, ⟨29, _⟩ => ⟨S_, .i32⟩
  | .hbm, ⟨30, _⟩ => ⟨S512000, .i32⟩
  | .hbm, ⟨31, _⟩ => ⟨S512000, .i32⟩
  | .hbm, ⟨32, _⟩ => ⟨S512000, .i32⟩
  | .hbm, ⟨33, _⟩ => ⟨S512000x1, .i32⟩
  | .hbm, ⟨34, _⟩ => ⟨S512000x128, .f32⟩
  | .hbm, ⟨35, _⟩ => ⟨S512000x384, .f32⟩
  | .hbm, ⟨36, _⟩ => ⟨S512000x128, .f32⟩
  | .hbm, ⟨37, _⟩ => ⟨S1x128, .f32⟩
  | .hbm, ⟨38, _⟩ => ⟨S512000x128, .f32⟩
  | .hbm, ⟨39, _⟩ => ⟨S512000x128, .f32⟩
  | .hbm, ⟨40, _⟩ => ⟨S_, .f32⟩
  | .hbm, ⟨41, _⟩ => ⟨S512000x128, .f32⟩
  | .hbm, ⟨42, _⟩ => ⟨S512000x128, .f32⟩
  | .hbm, ⟨43, _⟩ => ⟨S512000x128, .f32⟩
  | .hbm, ⟨44, _⟩ => ⟨S1x128, .f32⟩
  | .hbm, ⟨45, _⟩ => ⟨S512000x128, .f32⟩
  | .hbm, ⟨46, _⟩ => ⟨S512000x128, .f32⟩
  | .hbm, ⟨47, _⟩ => ⟨S_, .f32⟩
  | .hbm, ⟨48, _⟩ => ⟨S512000x128, .f32⟩
  | .hbm, ⟨49, _⟩ => ⟨S512000x128, .f32⟩
  | .hbm, ⟨50, _⟩ => ⟨S512000x128, .f32⟩
  | .hbm, ⟨51, _⟩ => ⟨S1x128, .f32⟩
  | .hbm, ⟨52, _⟩ => ⟨S512000x128, .f32⟩
  | .hbm, ⟨53, _⟩ => ⟨S512000x128, .f32⟩
  | .hbm, ⟨54, _⟩ => ⟨S512000x128, .f32⟩
  | .hbm, ⟨55, _⟩ => ⟨S_, .f32⟩
  | .hbm, ⟨56, _⟩ => ⟨S512000, .f32⟩
  | .hbm, ⟨57, _⟩ => ⟨S512000x1, .f32⟩
  | .hbm, ⟨58, _⟩ => ⟨S_, .f32⟩
  | .hbm, ⟨59, _⟩ => ⟨S512000x1, .f32⟩
  | .hbm, ⟨60, _⟩ => ⟨S512000x1, .f32⟩
  | .hbm, ⟨61, _⟩ => ⟨S512000x128, .f32⟩
  | .hbm, ⟨62, _⟩ => ⟨S512000x128, .f32⟩
  | .hbm, ⟨63, _⟩ => ⟨S512000x128, .f32⟩
  | .hbm, ⟨64, _⟩ => ⟨S_, .f32⟩
  | .hbm, ⟨65, _⟩ => ⟨S512000, .f32⟩
  | .hbm, ⟨66, _⟩ => ⟨S512000x1, .f32⟩
  | .hbm, ⟨67, _⟩ => ⟨S_, .f32⟩
  | .hbm, ⟨68, _⟩ => ⟨S512000x1, .f32⟩
  | .hbm, ⟨69, _⟩ => ⟨S512000x1, .f32⟩
  | .hbm, ⟨70, _⟩ => ⟨S512000x128, .f32⟩
  | .hbm, ⟨71, _⟩ => ⟨S512000x128, .f32⟩
  | .hbm, ⟨72, _⟩ => ⟨S_, .f32⟩
  | .hbm, ⟨73, _⟩ => ⟨S512000x1, .f32⟩
  | .hbm, ⟨74, _⟩ => ⟨S512000x1, .f32⟩
  | .hbm, ⟨75, _⟩ => ⟨S512000x1, .f32⟩
  | .hbm, ⟨76, _⟩ => ⟨S512000x128, .f32⟩
  | .hbm, ⟨77, _⟩ => ⟨S512000x128, .f32⟩
  | .hbm, ⟨78, _⟩ => ⟨S1x128, .f32⟩
  | .hbm, ⟨79, _⟩ => ⟨S512000x128, .f32⟩
  | .hbm, ⟨80, _⟩ => ⟨S512000x128, .f32⟩
  | .hbm, ⟨81, _⟩ => ⟨S1x128, .f32⟩
  | .hbm, ⟨82, _⟩ => ⟨S512000x128, .f32⟩
  | .hbm, ⟨83, _⟩ => ⟨S512000x128, .f32⟩
  | _, _ => ⟨S32000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_1 : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call0_cst : Ref sig .tc := ⟨.hbm, 40, rfl⟩
abbrev main_call0_v0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call1_cst : Ref sig .tc := ⟨.hbm, 47, rfl⟩
abbrev main_call1_v0 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst : Ref sig .tc := ⟨.hbm, 55, rfl⟩
abbrev main_v35 : Ref sig .tc := ⟨.hbm, 56, rfl⟩
abbrev main_v36 : Ref sig .tc := ⟨.hbm, 57, rfl⟩
abbrev main_cst_3 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_4 : Ref sig .tc := ⟨.hbm, 64, rfl⟩
abbrev main_v42 : Ref sig .tc := ⟨.hbm, 65, rfl⟩
abbrev main_v43 : Ref sig .tc := ⟨.hbm, 66, rfl⟩
abbrev main_cst_5 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_6 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩

abbrev nD : Nat := 1
abbrev τ : Topo := Topo.v7x

variable {F : FTy → Type} [FloatOps F]

class Facts₀ : Prop where
  slices_S2x512000_S1x512000_0_0 : S2x512000.Slices ![0, 0] S1x512000
  shapeCasts_S1x512000_S512000 : S1x512000.ShapeCasts S512000
  slices_S2x512000_S1x512000_1_0 : S2x512000.Slices ![1, 0] S1x512000
  bcast_S_S512000 : S_.BroadcastsInDim S512000 (![] : Fin 0 → Fin S512000.rank)
  bcast_S512000_S512000x1_0 : S512000.BroadcastsInDim S512000x1 (![0] : Fin 1 → Fin S512000x1.rank)
  concatenates_S512000x128_S512000x128_S512000x128_S512000x384_d1 : Shape.Concatenates [S512000x128, S512000x128, S512000x128] S512000x384 1
  bcast_S128_S1x128_1 : S128.BroadcastsInDim S1x128 (![1] : Fin 1 → Fin S1x128.rank)
  bcast_S1x128_S512000x128_0_1 : S1x128.BroadcastsInDim S512000x128 (![0, 1] : Fin 2 → Fin S512000x128.rank)
  bcast_S_S512000x128 : S_.BroadcastsInDim S512000x128 (![] : Fin 0 → Fin S512000x128.rank)
  reducesTo_S512000x128_S512000_d1 : S512000x128.ReducesTo [1] S512000
  h_S_ : 0 < S_.numel
  bcast_S_S512000x1 : S_.BroadcastsInDim S512000x1 (![] : Fin 0 → Fin S512000x1.rank)
  bcast_S512000x1_S512000x128_0_1 : S512000x1.BroadcastsInDim S512000x128 (![0, 1] : Fin 2 → Fin S512000x128.rank)
  dot_S32000x256_S256x128_S32000x128_1_0_0_1_n_n_wf : DotDims.WF S32000x256 S256x128 S32000x128 [1] [0] [0] [1] [] []
  gather_S32000x128_S512000x1_S512000x128_1_0_n_n_0_1_1128_wf : GatherDims.WF S32000x128 S512000x1 S512000x128 [1] [0] [] [0] [] 1 ![1, 128]
  dot_S512000x384_S384x128_S512000x128_1_0_0_1_n_n_wf : DotDims.WF S512000x384 S384x128 S512000x128 [1] [0] [0] [1] [] []
  dot_S512000x128_S128x128_S512000x128_1_0_0_1_n_n_wf : DotDims.WF S512000x128 S128x128 S512000x128 [1] [0] [0] [1] [] []

variable [Facts₀]

def dot_S32000x256_S256x128_S32000x128_1_0_0_1_n_n : DotDims S32000x256 S256x128 S32000x128 where
  lhsContracting := [1]
  rhsContracting := [0]
  lhsNonContracting := [0]
  rhsNonContracting := [1]
  lhsBatch := []
  rhsBatch := []
  wf := dot_S32000x256_S256x128_S32000x128_1_0_0_1_n_n_wf
def gather_S32000x128_S512000x1_S512000x128_1_0_n_n_0_1_1128 : GatherDims S32000x128 S512000x1 S512000x128 where
  offsetDims := [1]
  collapsedSliceDims := [0]
  operandBatchingDims := []
  startIndicesBatchingDims := []
  startIndexMap := [0]
  indexVectorDim := 1
  sliceSizes := ![1, 128]
  wf := gather_S32000x128_S512000x1_S512000x128_1_0_n_n_0_1_1128_wf
def dot_S512000x384_S384x128_S512000x128_1_0_0_1_n_n : DotDims S512000x384 S384x128 S512000x128 where
  lhsContracting := [1]
  rhsContracting := [0]
  lhsNonContracting := [0]
  rhsNonContracting := [1]
  lhsBatch := []
  rhsBatch := []
  wf := dot_S512000x384_S384x128_S512000x128_1_0_0_1_n_n_wf
def dot_S512000x128_S128x128_S512000x128_1_0_0_1_n_n : DotDims S512000x128 S128x128 S512000x128 where
  lhsContracting := [1]
  rhsContracting := [0]
  lhsNonContracting := [0]
  rhsNonContracting := [1]
  lhsBatch := []
  rhsBatch := []
  wf := dot_S512000x128_S128x128_S512000x128_1_0_0_1_n_n_wf

class Facts : Prop extends Facts₀ where

variable [Facts]
-- ==== Proof.Spec.lean ====
/-
  The mathematics of the edge update, at the exact values (extended reals), written row by row.

  An atom's scalar features are a linear image of its raw features: `lin X W` is the matrix product
  `X · W`.  An edge's new features depend only on that edge's own row of three arrays — the scalar
  features of its destination atom `d`, those of its source atom `s`, and the edge's old features `f` —
  and on the weights: the three rows are joined end to end into a vector of length 384, pushed through
  two affine layers each followed by `max · 0` and a third affine layer, added back to `f`, and the sum
  is normalised over its 128 entries (mean and mean square deviation, each a sum divided by the constant
  128; then `(x - μ) · rsqrt (σ² + ε) · γ + β`).  `rowOut` is that function of one row, and `edgeOut`
  applies it to every row of arrays with any number `n` of rows: because the row count is a parameter, a
  block of 4096 rows and the whole array of 512000 rows are instances of the same definition, and
  `edgeOut_block` says that restricting the three row arrays to a block of consecutive rows restricts
  the result.
-/
import Idealize.ShloMosaic.PureOps.Ideal
import Idealize.ShloMosaic.PureOps.Ideal.Laws
import Idealize.ShloMosaic.Lib.ValueIdx

noncomputable section

open scoped BigOperators

namespace Cert.EdgeSpec

open Idealize.ShloMosaic Idealize.ShloMosaic.ValueIdx

/-- A matrix of extended reals with `a` rows and `b` columns. -/
abbrev Mat (a b : ℕ) : Type := (⟨2, ![a, b]⟩ : Shape).Idx → EReal
/-- A vector of extended reals of length `a`. -/
abbrev Vc (a : ℕ) : Type := (⟨1, ![a]⟩ : Shape).Idx → EReal

/-- Row `p` of a matrix, as a function of the column. -/
def row {a b : ℕ} (X : Mat a b) (p : Fin a) : Fin b → EReal := fun k => X (ix2 p k)

/-- The matrix product `X · W`, entry by entry. -/
def lin {a k b : ℕ} (X : Mat a k) (W : Mat k b) : Mat a b :=
  fun i => ∑ t : Fin k, X (ix2 ⟨(i 0).val, idx2_lt0 i⟩ t) * W (ix2 t ⟨(i 1).val, idx2_lt1 i⟩)

/-- Three vectors of length 128 joined end to end. -/
def cat3 (d s f : Fin 128 → EReal) : Fin 384 → EReal := fun k =>
  if h : k.val < 128 then d ⟨k.val, h⟩
  else if h2 : k.val < 256 then s ⟨k.val - 128, by omega⟩
  else f ⟨k.val - 256, by omega⟩

/-- One affine layer at output column `j`: `(x · W) j + b j`. -/
def affine {n : ℕ} (x : Fin n → EReal) (W : Mat n 128) (b : Vc 128) (j : Fin 128) : EReal :=
  (∑ t : Fin n, x t * W (ix2 t j)) + b (ix1 j)

/-- The divisor of both means: the float 128. -/
def c128 : EReal := Ideal.ofBits .f32 0x43000000#32
/-- The variance offset: the float nearest to 1e-5. -/
def eps : EReal := Ideal.ofBits .f32 0x3727C5AC#32

/-- The edge's features before normalisation, column by column: the old features plus the three-layer image of the joined rows. -/
def preNorm (d s f : Fin 128 → EReal) (W1 : Mat 384 128) (b1 : Vc 128) (W2 : Mat 128 128) (b2 : Vc 128)
    (W3 : Mat 128 128) (b3 : Vc 128) : Fin 128 → EReal :=
  fun j => f j + affine (fun j => max (affine (fun j => max (affine (cat3 d s f) W1 b1 j) 0) W2 b2 j) 0) W3 b3 j

/-- Normalisation of one row `x` of 128 entries at column `q`: with `μ = (∑ x) / 128` and `σ² = (∑ (x - μ)²) / 128`,
    `(x q - μ) · rsqrt (σ² + ε) · γ q + β q`. -/
def normRow (x : Fin 128 → EReal) (g be : Vc 128) (q : Fin 128) : EReal :=
  (x q - Ideal.div (∑ j : Fin 128, x j) c128)
      * Ideal.rsqrt (Ideal.div (∑ j : Fin 128, (x j - Ideal.div (∑ j : Fin 128, x j) c128) * (x j - Ideal.div (∑ j : Fin 128, x j) c128)) c128 + eps)
      * g (ix1 q) + be (ix1 q)

/-- The update of one edge from its three rows and the weights, at output column `q`. -/
def rowOut (d s f : Fin 128 → EReal) (W1 : Mat 384 128) (b1 : Vc 128) (W2 : Mat 128 128) (b2 : Vc 128)
    (W3 : Mat 128 128) (b3 : Vc 128) (g be : Vc 128) (q : Fin 128) : EReal :=
  normRow (preNorm d s f W1 b1 W2 b2 W3 b3) g be q

/-- The update of every edge: row `p` of the result is `rowOut` of rows `p` of the three row arrays. -/
def edgeOut {n : ℕ} (D S E : Mat n 128) (W1 : Mat 384 128) (b1 : Vc 128) (W2 : Mat 128 128) (b2 : Vc 128)
    (W3 : Mat 128 128) (b3 : Vc 128) (g be : Vc 128) : Mat n 128 :=
  fun i => rowOut (row D ⟨(i 0).val, idx2_lt0 i⟩) (row S ⟨(i 0).val, idx2_lt0 i⟩) (row E ⟨(i 0).val, idx2_lt0 i⟩)
    W1 b1 W2 b2 W3 b3 g be ⟨(i 1).val, idx2_lt1 i⟩

/-- At explicit coordinates. -/
theorem edgeOut_ix2 {n : ℕ} (D S E : Mat n 128) (W1 : Mat 384 128) (b1 : Vc 128) (W2 : Mat 128 128) (b2 : Vc 128)
    (W3 : Mat 128 128) (b3 : Vc 128) (g be : Vc 128) (p : Fin n) (q : Fin 128) :
    edgeOut D S E W1 b1 W2 b2 W3 b3 g be (ix2 p q) = rowOut (row D p) (row S p) (row E p) W1 b1 W2 b2 W3 b3 g be q := rfl

/-- The update is local to rows: if the rows `p'` of three small arrays are the rows `p` of three large ones, the small
    result at row `p'` is the large result at row `p`. -/
theorem edgeOut_row_congr {n n' : ℕ} (D S E : Mat n 128) (D' S' E' : Mat n' 128) (W1 : Mat 384 128) (b1 : Vc 128)
    (W2 : Mat 128 128) (b2 : Vc 128) (W3 : Mat 128 128) (b3 : Vc 128) (g be : Vc 128) (p : Fin n) (p' : Fin n') (q : Fin 128)
    (hD : row D' p' = row D p) (hS : row S' p' = row S p) (hE : row E' p' = row E p) :
    edgeOut D' S' E' W1 b1 W2 b2 W3 b3 g be (ix2 p' q) = edgeOut D S E W1 b1 W2 b2 W3 b3 g be (ix2 p q) := by
  rw [edgeOut_ix2, edgeOut_ix2, hD, hS, hE]

end Cert.EdgeSpec

end
-- ==== Proof.Region0.lean ====
/-
  Region 0: the atoms' scalar features. Each of the 8 grid points multiplies a block of 4000 rows of the atom features by
  the whole weight matrix, so the array the region leaves is the matrix product of the two arrays it found.
-/
import proofs.«419849_j7627861918026_1_alg».proof.Proof.Gen.KernelIdeal.Frame
import proofs.«419849_j7627861918026_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen Cert.EdgeSpec
open Idealize.ShloMosaic Idealize.ShloMosaic.TcCoe Idealize.ShloMosaic.ValueIdx Idealize.SL.Sem
open Idealize.ShloMosaic.Pipeline (Dat Cfg Window)

open scoped BigOperators

/-! ## The block product at an entry -/

/-- The left operand of the block product is read at the output's row … -/
theorem lhs_row (i : S4000x128.Idx) (q : dot_S4000x256_S256x128_S4000x128_1_0_0_1_n_n.contr.Idx) :
    (dot_S4000x256_S256x128_S4000x128_1_0_0_1_n_n.lhsIdx i q 0).val = (i 0).val := by
  unfold DotDims.lhsIdx
  rw [dif_neg (show ¬(0 : Fin S4000x256.rank) ∈ dot_S4000x256_S256x128_S4000x128_1_0_0_1_n_n.lhsBatch by decide), dif_pos (show (0 : Fin S4000x256.rank) ∈ dot_S4000x256_S256x128_S4000x128_1_0_0_1_n_n.lhsNonContracting by decide)]
  rfl
/-- … and at the summation index as its column; -/
theorem lhs_col (i : S4000x128.Idx) (q : dot_S4000x256_S256x128_S4000x128_1_0_0_1_n_n.contr.Idx) :
    (dot_S4000x256_S256x128_S4000x128_1_0_0_1_n_n.lhsIdx i q 1).val = (q ⟨0, by decide⟩).val :=
  dot_S4000x256_S256x128_S4000x128_1_0_0_1_n_n.lhsIdx_val_of_single rfl i q
/-- the right operand at the summation index as its row … -/
theorem rhs_row (i : S4000x128.Idx) (q : dot_S4000x256_S256x128_S4000x128_1_0_0_1_n_n.contr.Idx) :
    (dot_S4000x256_S256x128_S4000x128_1_0_0_1_n_n.rhsIdx i q 0).val = (q ⟨0, by decide⟩).val :=
  dot_S4000x256_S256x128_S4000x128_1_0_0_1_n_n.rhsIdx_val_of_single rfl i q
/-- … and at the output's column. -/
theorem rhs_col (i : S4000x128.Idx) (q : dot_S4000x256_S256x128_S4000x128_1_0_0_1_n_n.contr.Idx) :
    (dot_S4000x256_S256x128_S4000x128_1_0_0_1_n_n.rhsIdx i q 1).val = (i 1).val := by
  unfold DotDims.rhsIdx
  rw [dif_neg (show ¬(1 : Fin S256x128.rank) ∈ dot_S4000x256_S256x128_S4000x128_1_0_0_1_n_n.rhsBatch by decide), dif_pos (show (1 : Fin S256x128.rank) ∈ dot_S4000x256_S256x128_S4000x128_1_0_0_1_n_n.rhsNonContracting by decide)]
  rfl

/-- One grid point's arithmetic, entry by entry: entry `(p, q)` of the block it stores is the sum over the 256 shared
    coordinates of row `p` of the feature block times column `q` of the weights (the roundings to the narrower float
    are the identity on exact values, and the accumulator starts at zero). -/
theorem blockProduct_apply (x0 : Vec Ideal S4000x256 .f32) (x1 : Vec Ideal S256x128 .f32) (p : Fin 4000) (q : Fin 128) :
    k0_pay1 (F := Ideal) x0 x1 (ix2 p q) = ∑ t : Fin 256, x0 (ix2 p t) * x1 (ix2 t q) := by
  unfold k0_pay1
  refine (Ideal.matmul_constant_zero_apply dot_S4000x256_S256x128_S4000x128_1_0_0_1_n_n none _ _ (ix2 p q)).trans ?_
  rw [← Equiv.sum_comp (contrEquiv1 dot_S4000x256_S256x128_S4000x128_1_0_0_1_n_n 256 rfl rfl).symm]
  refine Finset.sum_congr rfl fun k _ => ?_
  have hk := contrEquiv1_symm_val dot_S4000x256_S256x128_S4000x128_1_0_0_1_n_n 256 rfl rfl k
  have el : dot_S4000x256_S256x128_S4000x128_1_0_0_1_n_n.lhsIdx (ix2 p q) ((contrEquiv1 dot_S4000x256_S256x128_S4000x128_1_0_0_1_n_n 256 rfl rfl).symm k) = ix2 p k := funext fun a => Fin.ext (by
    match a with
    | ⟨0, _⟩ => exact lhs_row _ _
    | ⟨1, _⟩ => exact (lhs_col _ _).trans hk)
  have er : dot_S4000x256_S256x128_S4000x128_1_0_0_1_n_n.rhsIdx (ix2 p q) ((contrEquiv1 dot_S4000x256_S256x128_S4000x128_1_0_0_1_n_n 256 rfl rfl).symm k) = ix2 k q := funext fun a => Fin.ext (by
    match a with
    | ⟨0, _⟩ => exact (rhs_row _ _).trans hk
    | ⟨1, _⟩ => exact rhs_col _ _)
  rw [el, er]
  rfl

/-! ## Which rows a grid point works on -/

theorem origin : (![0, 0] : Fin 2 → Nat) = fun _ => 0 :=
  funext fun a => by match a with | ⟨0, _⟩ => rfl | ⟨1, _⟩ => rfl

/-- The block indices over the 8 grid points: the feature block and the output block are at the same block row, every
    other block index is zero, and the block row is at most 7. -/
theorem blockIndex_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 7 :=
  (by decide +kernel : ∀ t : Fin grid0.N, _)

/-- Every one of the 8 block rows of the output is some grid point's. -/
theorem blockIndex_onto : ∀ q0 : Fin 8, ∃ t : Fin cfg0.N, win0_2.index t = ![q0.val, 0] :=
  (by decide +kernel : ∀ q0 : Fin 8, ∃ t : Fin grid0.N, win0_2.index t = ![q0.val, 0])

section
variable (V : (c : Dev nD) → (b : Ref sig .tc) → Buf (Elt Ideal) ((c : Thread nD τ).loc b)) (c : Dev nD)

/-- Entry `(p, k)` of the feature block at a grid point is entry `(4000 b + p, k)` of the feature array, `b` the
    point's block row. -/
theorem featureBlock_apply (t : Fin cfg0.N) (p : Fin 4000) (k : Fin 256) (r : Fin 32000)
    (hr : r.val = win0_2.index t (0 : Fin 2) * 4000 + p.val) :
    iblk0 V c 0 t (ix2 p k) = V c main_arg0 (ix2 r k) := by
  obtain ⟨e0, e1, e2, e3, e4, e5⟩ := blockIndex_facts t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 4000 + 1 * p.val = r.val; omega
  | ⟨1, _⟩ => show win0_0.index t (1 : Fin 2) * 256 + 1 * k.val = k.val; omega

/-- The weight block at every grid point is the whole weight array. -/
theorem weightBlock_apply (t : Fin cfg0.N) (k : Fin 256) (q : Fin 128) :
    iblk0 V c 1 t (ix2 k q) = V c main_arg3 (ix2 k q) := by
  obtain ⟨e0, e1, e2, e3, e4, e5⟩ := blockIndex_facts t
  show V c main_arg3 (((cfg0.win 1).blk t).view.emb (ix2 k q)) = V c main_arg3 (ix2 k q)
  refine congrArg (V c main_arg3) (funext fun a => Fin.ext ?_)
  match a with
  | ⟨0, _⟩ => show win0_1.index t (0 : Fin 2) * 256 + 1 * k.val = k.val; omega
  | ⟨1, _⟩ => show win0_1.index t (1 : Fin 2) * 128 + 1 * q.val = q.val; omega

end

/-- Entry `(p, q)` of the matrix product, with the coordinates explicit. -/
theorem lin_apply {a k b : ℕ} (X : Mat a k) (W : Mat k b) (p : Fin a) (q : Fin b) :
    lin X W (ix2 p q) = ∑ t : Fin k, X (ix2 p t) * W (ix2 t q) := rfl

section
variable (V : (c : Dev nD) → (b : Ref sig .tc) → Buf (Elt Ideal) ((c : Thread nD τ).loc b)) (c : Dev nD)

/-- What a grid point writes back is its block of 4000 rows of the matrix product of the two arrays as found: entry
    `(p, q)` of the stored block is `∑ k, x (p, k) · w (k, q)` over the blocks, the feature block's row `p` is the
    array's row `4000 b + p`, and the output block's row `p` lands on the same row `4000 b + p`. -/
theorem flushed_eq (t : Fin cfg0.N) :
    (dat0 (F := Ideal) V c).flushed 2 t
      = ((cfg0.win 2).blk t).view.read (Elt Ideal) (lin (V c main_arg0) (V c main_arg3)) := by
  show (cfg0.win 2).cut (grid0.coords t) ((dat0 (F := Ideal) V c).after 2 t) = _
  rw [after0_2]
  unfold out0_2
  rw [View.canon_unit_zero origin]
  simp only [View.ld_unit_zero (S := S4000x256) origin, View.ld_unit_zero (S := S256x128) origin]
  obtain ⟨e0, e1, e2, e3, e4, e5⟩ := blockIndex_facts t
  funext j
  obtain ⟨p, q, rfl⟩ : ∃ (p : Fin 4000) (q : Fin 128), j = ix2 p q := ⟨j 0, j 1, eq_ix2 j⟩
  have hr : win0_2.index t (0 : Fin 2) * 4000 + p.val < 32000 := by have := p.isLt; omega
  have hemb : ((cfg0.win 2).blk t).view.emb (ix2 p q)
      = (ix2 ⟨win0_2.index t (0 : Fin 2) * 4000 + p.val, hr⟩ q : S32000x128.Idx) := by
    funext a; apply Fin.ext
    match a with
    | ⟨0, _⟩ => show win0_2.index t (0 : Fin 2) * 4000 + 1 * p.val = win0_2.index t (0 : Fin 2) * 4000 + p.val; omega
    | ⟨1, _⟩ => show win0_2.index t (1 : Fin 2) * 128 + 1 * q.val = q.val; omega
  show k0_pay1 (F := Ideal) (iblk0 V c 0 t) (iblk0 V c 1 t) (ix2 p q)
    = lin (V c main_arg0) (V c main_arg3) (((cfg0.win 2).blk t).view.emb (ix2 p q))
  rw [hemb]
  refine (blockProduct_apply (iblk0 V c 0 t) (iblk0 V c 1 t) p q).trans ?_
  refine Eq.trans ?_ (lin_apply (V c main_arg0) (V c main_arg3) ⟨win0_2.index t (0 : Fin 2) * 4000 + p.val, hr⟩ q).symm
  refine Finset.sum_congr rfl fun k _ => ?_
  rw [featureBlock_apply V c t p k ⟨_, hr⟩ rfl, weightBlock_apply V c t k q]

/-- An entry of the output array is in a grid point's block iff each coordinate is in the block's range on its axis. -/
theorem mem_block (t : Fin cfg0.N) (i : S32000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v0).slice (win0_2.rect t)).set ↔ _
  rw [View.set_slice_whole, Rect.mem_set_unit]
  exact Iff.rfl

/-- The 8 blocks of 4000 rows tile the 32000 rows: row `r` is in the block of the point whose block row is `r / 4000`. -/
theorem covered (i : S32000x128.Idx) :
    ∃ t : Fin cfg0.N, (cfg0.win 2).flush t = true ∧ i ∈ ((cfg0.win 2).blk t).view.set := by
  have hi0 : (i 0).val < 32000 := (i 0).isLt
  have hi1 : (i 1).val < 128 := (i 1).isLt
  obtain ⟨t, ht⟩ := blockIndex_onto ⟨(i 0).val / 4000, by omega⟩
  have q0 : win0_2.index t (0 : Fin 2) = (i 0).val / 4000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 128 ≤ (i 1).val ∧ (i 1).val < win0_2.index t (1 : Fin 2) * 128 + 128; omega

end

/-- Whatever the device's buffers hold when region 0 is entered (`V`), the region's output array ends holding the
    matrix product of the two input arrays as found. -/
theorem value (V : (c : Dev nD) → (b : Ref sig .tc) → Buf (Elt Ideal) ((c : Thread nD τ).loc b)) (c : Dev nD) :
    (dat0 (F := Ideal) V c).arrAt 2 cfg0.N = lin (V c main_arg0) (V c main_arg3) :=
  (dat0 (F := Ideal) V c).arrAt_eq_of_cover 2 (lin (V c main_arg0) (V c main_arg3))
    (fun t _ => flushed_eq V c t) covered

end Cert.KernelIdeal.Region0

end
-- ==== Proof.KernelMlp.lean ====
/-
  The first part of region 1's body on a block of 4096 edges, read at row p and column q: the three loaded row blocks are joined
  along the columns, multiplied by the first weight matrix, shifted by its bias and cut below at 0; the same with the second
  layer; the third layer without the cut; and the edge's old features are added. Every matrix product starts from a zero
  accumulator, so it is the plain sum over the contracted column.
-/
import proofs.«419849_j7627861918026_1_alg».proof.Proof.Gen.KernelIdeal.Skeleton
import proofs.«419849_j7627861918026_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KernelMlp

open Cert.KernelIdeal Cert.KernelIdeal.Gen Cert.EdgeSpec
open Idealize.ShloMosaic Idealize.ShloMosaic.TcCoe Idealize.ShloMosaic.ValueIdx Idealize.SL.Sem

theorem lhs_wide_0 (i : S4096x128.Idx) (q : dot_S4096x384_S384x128_S4096x128_1_0_0_1_n_n.contr.Idx) :
    (dot_S4096x384_S384x128_S4096x128_1_0_0_1_n_n.lhsIdx i q 0).val = (i 0).val := by
  unfold DotDims.lhsIdx
  rw [dif_neg (show ¬(0 : Fin S4096x384.rank) ∈ dot_S4096x384_S384x128_S4096x128_1_0_0_1_n_n.lhsBatch by decide), dif_pos (show (0 : Fin S4096x384.rank) ∈ dot_S4096x384_S384x128_S4096x128_1_0_0_1_n_n.lhsNonContracting by decide)]
  rfl
theorem lhs_wide_1 (i : S4096x128.Idx) (q : dot_S4096x384_S384x128_S4096x128_1_0_0_1_n_n.contr.Idx) :
    (dot_S4096x384_S384x128_S4096x128_1_0_0_1_n_n.lhsIdx i q 1).val = (q ⟨0, by decide⟩).val :=
  dot_S4096x384_S384x128_S4096x128_1_0_0_1_n_n.lhsIdx_val_of_single rfl i q
theorem rhs_wide_0 (i : S4096x128.Idx) (q : dot_S4096x384_S384x128_S4096x128_1_0_0_1_n_n.contr.Idx) :
    (dot_S4096x384_S384x128_S4096x128_1_0_0_1_n_n.rhsIdx i q 0).val = (q ⟨0, by decide⟩).val :=
  dot_S4096x384_S384x128_S4096x128_1_0_0_1_n_n.rhsIdx_val_of_single rfl i q
theorem rhs_wide_1 (i : S4096x128.Idx) (q : dot_S4096x384_S384x128_S4096x128_1_0_0_1_n_n.contr.Idx) :
    (dot_S4096x384_S384x128_S4096x128_1_0_0_1_n_n.rhsIdx i q 1).val = (i 1).val := by
  unfold DotDims.rhsIdx
  rw [dif_neg (show ¬(1 : Fin S384x128.rank) ∈ dot_S4096x384_S384x128_S4096x128_1_0_0_1_n_n.rhsBatch by decide), dif_pos (show (1 : Fin S384x128.rank) ∈ dot_S4096x384_S384x128_S4096x128_1_0_0_1_n_n.rhsNonContracting by decide)]
  rfl

/-- The product from a zero accumulator, at row `p` and column `j`: the sum over the contracted column. -/
theorem matmul_wide_apply (X : FVec Ideal S4096x384 .bf16) (W : FVec Ideal S384x128 .bf16) (p : Fin 4096) (j : Fin 128) :
    matmul dot_S4096x384_S384x128_S4096x128_1_0_0_1_n_n none X W (constant (F := Ideal) S4096x128 .f32 0x00000000#32) (ix2 p j)
      = ∑ t : Fin 384, X (ix2 p t) * W (ix2 t j) := by
  refine (Ideal.matmul_constant_zero_apply _ none X W (ix2 p j)).trans ?_
  rw [← Equiv.sum_comp (contrEquiv1 dot_S4096x384_S384x128_S4096x128_1_0_0_1_n_n 384 rfl rfl).symm]
  refine Finset.sum_congr rfl fun k _ => ?_
  have hk := contrEquiv1_symm_val dot_S4096x384_S384x128_S4096x128_1_0_0_1_n_n 384 rfl rfl k
  have el : dot_S4096x384_S384x128_S4096x128_1_0_0_1_n_n.lhsIdx (ix2 p j) ((contrEquiv1 dot_S4096x384_S384x128_S4096x128_1_0_0_1_n_n 384 rfl rfl).symm k) = ix2 p k := funext fun a => Fin.ext (by
    match a with
    | ⟨0, _⟩ => exact lhs_wide_0 _ _
    | ⟨1, _⟩ => exact (lhs_wide_1 _ _).trans hk)
  have er : dot_S4096x384_S384x128_S4096x128_1_0_0_1_n_n.rhsIdx (ix2 p j) ((contrEquiv1 dot_S4096x384_S384x128_S4096x128_1_0_0_1_n_n 384 rfl rfl).symm k) = ix2 k j := funext fun a => Fin.ext (by
    match a with
    | ⟨0, _⟩ => exact (rhs_wide_0 _ _).trans hk
    | ⟨1, _⟩ => exact rhs_wide_1 _ _)
  rw [el, er]

theorem lhs_sq_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhs_sq_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhs_sq_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhs_sq_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The product from a zero accumulator, at row `p` and column `j`: the sum over the contracted column. -/
theorem matmul_sq_apply (X : FVec Ideal S4096x128 .bf16) (W : FVec Ideal S128x128 .bf16) (p : Fin 4096) (j : Fin 128) :
    matmul dot_S4096x128_S128x128_S4096x128_1_0_0_1_n_n none X W (constant (F := Ideal) S4096x128 .f32 0x00000000#32) (ix2 p j)
      = ∑ t : Fin 128, X (ix2 p t) * W (ix2 t j) := by
  refine (Ideal.matmul_constant_zero_apply _ none X W (ix2 p j)).trans ?_
  rw [← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 p j) ((contrEquiv1 dot_S4096x128_S128x128_S4096x128_1_0_0_1_n_n 128 rfl rfl).symm k) = ix2 p k := funext fun a => Fin.ext (by
    match a with
    | ⟨0, _⟩ => exact lhs_sq_0 _ _
    | ⟨1, _⟩ => exact (lhs_sq_1 _ _).trans hk)
  have er : dot_S4096x128_S128x128_S4096x128_1_0_0_1_n_n.rhsIdx (ix2 p j) ((contrEquiv1 dot_S4096x128_S128x128_S4096x128_1_0_0_1_n_n 128 rfl rfl).symm k) = ix2 k j := funext fun a => Fin.ext (by
    match a with
    | ⟨0, _⟩ => exact (rhs_sq_0 _ _).trans hk
    | ⟨1, _⟩ => exact rhs_sq_1 _ _)
  rw [el, er]

/-- Three blocks of 4096 rows joined along the columns, at row `p` and column `k`: the three rows `p` joined end to end. -/
theorem join3_apply (a b c : S4096x128.Idx → EReal)
    (h : Shape.Concatenates [S4096x128, S4096x128, S4096x128] S4096x384 1) (p : Fin 4096) (k : Fin 384) :
    concatenate S4096x384 1 [⟨S4096x128, a⟩, ⟨S4096x128, b⟩, ⟨S4096x128, c⟩] h (ix2 p k)
      = cat3 (row (a := 4096) (b := 128) a p) (row (a := 4096) (b := 128) b p) (row (a := 4096) (b := 128) c p) k := by
  unfold cat3 row
  by_cases h1 : k.val < 128
  · rw [dif_pos h1]
    refine concatenate_apply_piece (t := S4096x384) 1 [⟨S4096x128, a⟩, ⟨S4096x128, b⟩, ⟨S4096x128, c⟩] h (ix2 p k) 0 (by show 0 < 3; omega) S4096x128 a rfl rfl 0 rfl (ix2 p ⟨k.val, h1⟩) ?_ ?_
    · intro ax hax
      match ax with
      | ⟨0, _⟩ => rfl
      | ⟨1, _⟩ => exact absurd rfl hax
    · show 0 + k.val = k.val
      omega
  · rw [dif_neg h1]
    by_cases h2 : k.val < 256
    · rw [dif_pos h2]
      refine concatenate_apply_piece (t := S4096x384) 1 [⟨S4096x128, a⟩, ⟨S4096x128, b⟩, ⟨S4096x128, c⟩] h (ix2 p k) 1 (by show 1 < 3; omega) S4096x128 b rfl rfl 128 rfl (ix2 p ⟨k.val - 128, by omega⟩) ?_ ?_
      · intro ax hax
        match ax with
        | ⟨0, _⟩ => rfl
        | ⟨1, _⟩ => exact absurd rfl hax
      · show 128 + (k.val - 128) = k.val
        omega
    · rw [dif_neg h2]
      refine concatenate_apply_piece (t := S4096x384) 1 [⟨S4096x128, a⟩, ⟨S4096x128, b⟩, ⟨S4096x128, c⟩] h (ix2 p k) 2 (by show 2 < 3; omega) S4096x128 c rfl rfl 256 rfl (ix2 p ⟨k.val - 256, by omega⟩) ?_ ?_
      · intro ax hax
        match ax with
        | ⟨0, _⟩ => rfl
        | ⟨1, _⟩ => exact absurd rfl hax
      · show 256 + (k.val - 256) = k.val
        have := k.isLt
        omega

/-- A bias of 128 entries laid as one row and repeated over 4096 rows, at row `p` and column `j`: its entry `j`. -/
theorem bias_apply (b : S128.Idx → EReal) (h1 : S128.ShapeCasts S1x128) (h2 : S1x128.Broadcasts S4096x128)
    (p : Fin 4096) (j : Fin 128) :
    broadcastTo S4096x128 (shapeCast S1x128 b h1) h2 (ix2 p j) = b (ix1 j) :=
  (broadcastTo_1b_ab_apply (shapeCast S1x128 b h1) h2 p j).trans (shapeCast_a_1a_apply b h1 0 j)

/-- The join of the three loaded blocks (the first two through a cast to their own shape), at row `p` and column `k`. -/
theorem join3_cast_apply (a b c : S4096x128.Idx → EReal) (hc : S4096x128.ShapeCasts S4096x128)
    (h : Shape.Concatenates [S4096x128, S4096x128, S4096x128] S4096x384 1) (p : Fin 4096) (k : Fin 384) :
    concatenate S4096x384 1 [⟨S4096x128, shapeCast S4096x128 a hc⟩, ⟨S4096x128, shapeCast S4096x128 b hc⟩, ⟨S4096x128, c⟩] h (ix2 p k)
      = cat3 (row (a := 4096) (b := 128) a p) (row (a := 4096) (b := 128) b p) (row (a := 4096) (b := 128) c p) k := by
  rw [shapeCast_self, shapeCast_self]
  exact join3_apply a b c h p k

/-- The first affine layer at row `p` and column `j`: the product over the 384 joined columns plus the bias entry. -/
theorem layer_wide_apply (X : FVec Ideal S4096x384 .f32) (W : FVec Ideal S384x128 .f32) (b : FVec Ideal S128 .f32)
    (hb : FTy.bits .bf16 < FTy.bits .f32) (h1 : S128.ShapeCasts S1x128) (h2 : S1x128.Broadcasts S4096x128)
    (p : Fin 4096) (j : Fin 128) :
    addf (matmul dot_S4096x384_S384x128_S4096x128_1_0_0_1_n_n none (truncf .bf16 X hb) (truncf .bf16 W hb) (constant (F := Ideal) S4096x128 .f32 0x00000000#32))
        (broadcastTo S4096x128 (shapeCast S1x128 b h1) h2) (ix2 p j)
      = affine (fun t : Fin 384 => X (ix2 p t)) W b j := by
  refine (addf_apply _ _ _).trans ?_
  rw [matmul_wide_apply, bias_apply]
  rfl

/-- A later affine layer at row `p` and column `j`: the product over the 128 columns plus the bias entry. -/
theorem layer_sq_apply (X : FVec Ideal S4096x128 .f32) (W : FVec Ideal S128x128 .f32) (b : FVec Ideal S128 .f32)
    (hb : FTy.bits .bf16 < FTy.bits .f32) (h1 : S128.ShapeCasts S1x128) (h2 : S1x128.Broadcasts S4096x128)
    (p : Fin 4096) (j : Fin 128) :
    addf (matmul dot_S4096x128_S128x128_S4096x128_1_0_0_1_n_n none (truncf .bf16 X hb) (truncf .bf16 W hb) (constant (F := Ideal) S4096x128 .f32 0x00000000#32))
        (broadcastTo S4096x128 (shapeCast S1x128 b h1) h2) (ix2 p j)
      = affine (fun t : Fin 128 => X (ix2 p t)) W b j := by
  refine (addf_apply _ _ _).trans ?_
  rw [matmul_sq_apply, bias_apply]
  rfl

/-- The cut below at the zero word is `max · 0`. -/
theorem cut_apply (Y : FVec Ideal S4096x128 .f32) (p : Fin 4096) (j : Fin 128) :
    maximumf Y (broadcast S4096x128 (Scalar.ofBits (F := Ideal) .f32 0x00000000#32)) (ix2 p j) = max (Y (ix2 p j)) 0 := by
  refine (maximumf_apply _ _ _).trans ?_
  show max (Y (ix2 p j)) (Ideal.ofBits .f32 0x00000000#32) = _
  rw [Ideal.ofBits_zero_f32]

/-- The block before normalisation, at row `p` and column `q`: the pre-normalisation features of the block's row `p`. -/
theorem pay2_apply (x0 x1 x2 : Vec Ideal S4096x128 .f32) (x3 : Vec Ideal S384x128 .f32) (x4 : Vec Ideal S128 .f32)
    (x5 : Vec Ideal S128x128 .f32) (x6 : Vec Ideal S128 .f32) (x7 : Vec Ideal S128x128 .f32) (x8 : Vec Ideal S128 .f32)
    (p : Fin 4096) (q : Fin 128) :
    k1_pay2 (F := Ideal) x0 x1 x2 x3 x4 x5 x6 x7 x8 (ix2 p q)
      = preNorm (row (a := 4096) (b := 128) x0 p) (row (a := 4096) (b := 128) x1 p) (row (a := 4096) (b := 128) x2 p) x3 x4 x5 x6 x7 x8 q := by
  unfold k1_pay2 preNorm
  -- the old features plus the third layer
  refine (addf_apply _ _ _).trans ?_
  refine congrArg (x2 (ix2 p q) + ·) ?_
  refine (layer_sq_apply _ x7 x8 _ _ _ p q).trans ?_
  refine congrArg (fun f => affine f x7 x8 q) (funext fun j => ?_)
  -- the second layer, cut at 0
  refine (cut_apply _ p j).trans ?_
  refine congrArg (max · 0) ?_
  refine (layer_sq_apply _ x5 x6 _ _ _ p j).trans ?_
  refine congrArg (fun f => affine f x5 x6 j) (funext fun i => ?_)
  -- the first layer, cut at 0, on the joined rows
  refine (cut_apply _ p i).trans ?_
  refine congrArg (max · 0) ?_
  refine (layer_wide_apply _ x3 x4 _ _ _ p i).trans ?_
  refine congrArg (fun f => affine f x3 x4 i) (funext fun k => ?_)
  exact join3_cast_apply x0 x1 x2 _ _ p k

end Cert.KernelIdeal.KernelMlp

end
-- ==== Proof.KernelNorm.lean ====
/-
  The second part of region 1's body: the normalisation of each row of the block. The row sums are lane sums starting from
  zero, both means divide by the constant 128, and the centred row is scaled by rsqrt of the mean square deviation plus ε,
  then by γ, and shifted by β.
-/
import proofs.«419849_j7627861918026_1_alg».proof.Proof.Gen.KernelIdeal.Skeleton
import proofs.«419849_j7627861918026_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KernelNorm

open Cert.KernelIdeal Cert.KernelIdeal.Gen Cert.EdgeSpec
open Idealize.ShloMosaic Idealize.ShloMosaic.TcCoe Idealize.ShloMosaic.ValueIdx Idealize.SL.Sem

/-- The column of row sums the body computes from a block `X`: the lane sum over the 128 columns, kept as a [4096, 1] column. -/
def rowSums (X : FVec Ideal S4096x128 .f32) : FVec Ideal S4096x1 .f32 :=
  shapeCast S4096x1 (multiReduction .add [1] S4096 X 0x00000000#32 reduces_S4096x128_S4096 (.inl rfl) rfl) shapeCasts_S4096_S4096x1

/-! ## A row statistic kept as a [a, 1] column and spread back along the rows, read at an index -/

/-- An `[a]` array cast to the column `[a, 1]` reads, at `(p, u)`, the operand at `p`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reciprocal square root of a vector, read at an index, is that of the entry. -/
theorem rsqrt_apply {s : Shape} {φ : FTy} (a : FVec Ideal s φ) (i : s.Idx) : rsqrt a i = Ideal.rsqrt (a i) := rfl

/-- The lane sum of a [4096, 128] block from zero, read at row `p`: the sum of the row's 128 entries. -/
theorem laneSum_apply (V : FVec Ideal S4096x128 .f32) (hφ : FTy.f32 = FTy.f32 ∨ FTy.f32 = FTy.bf16)
    (hacc : (0x00000000#32 : BitVec 32) = 0x00000000#32) (p : Fin 4096) :
    multiReduction (F := Ideal) .add [1] S4096 V 0x00000000#32 reduces_S4096x128_S4096 hφ hacc (ix1 p)
      = ∑ k : Fin 128, V (ix2 p k) := by
  refine (Ideal.multiReduction_add_single V 0x00000000#32 reduces_S4096x128_S4096 hφ hacc (ix1 p)).trans ?_
  refine Finset.sum_congr rfl fun k _ => congrArg V ?_
  funext a
  exact Fin.ext (match a with | ⟨0, _⟩ => rfl | ⟨1, _⟩ => rfl)

/-- The column of row sums at row `p`: the sum of the row's 128 entries. -/
theorem rowSums_apply (X : FVec Ideal S4096x128 .f32) (p : Fin 4096) (u : Fin 1) :
    rowSums X (ix2 p u) = ∑ k : Fin 128, X (ix2 p k) := by
  unfold rowSums
  exact (shapeCast_a_a1_apply _ shapeCasts_S4096_S4096x1 p u).trans (laneSum_apply X _ _ p)

/-- The stored block at row `p`, column `q`, from the block `X` before normalisation and its row sums: the normalised row. -/
theorem pay1_apply (X : FVec Ideal S4096x128 .f32) (g be : Vec Ideal S128 .f32) (p : Fin 4096) (q : Fin 128) :
    k1_pay1 (F := Ideal) X (rowSums X) (Scalar.ofBits .f32 0x43000000#32) g be (ix2 p q)
      = normRow (row (a := 4096) (b := 128) X p) g be q := by
  unfold k1_pay1 normRow row c128 eps
  -- the pointwise operations, the mean and scale columns spread along the row, and the row vectors γ and β, read at (p, q)
  simp only [addf_apply, mulf_apply, subf_apply, divf_apply, broadcast_apply, rsqrt_apply,
    broadcastTo_a1_ab_apply, broadcastTo_1b_ab_apply, shapeCast_a_1a_apply, shapeCast_a_a1_apply, rowSums_apply]
  -- the second lane sum, of the squared centred entries of row p
  rw [laneSum_apply]
  simp only [mulf_apply, subf_apply, divf_apply, broadcast_apply, broadcastTo_a1_ab_apply, rowSums_apply]
  rfl

end Cert.KernelIdeal.KernelNorm

end
-- ==== Proof.BodyValue.lean ====
/-
  The body of region 1 on one block of 4096 edges: what it stores is the edge update of the block's rows. The body's one
  store covers the whole output block, each load reads a whole input block, the stored value is the normalisation of the
  block before normalisation, and the column of row sums it is handed is the lane sum of that same block.
-/
import proofs.«419849_j7627861918026_1_alg».proof.Proof.Gen.KernelIdeal.Frame
import proofs.«419849_j7627861918026_1_alg».proof.Proof.Spec
import proofs.«419849_j7627861918026_1_alg».proof.Proof.KernelMlp
import proofs.«419849_j7627861918026_1_alg».proof.Proof.KernelNorm
import Idealize.ShloMosaic.Lib.Pipeline.Value
import Idealize.ShloMosaic.Lib.ValueIdx

set_option maxRecDepth 16384

noncomputable section

namespace Cert.KernelIdeal.BodyValue

open Cert.KernelIdeal Cert.KernelIdeal.Gen Cert.EdgeSpec
open Idealize.ShloMosaic Idealize.ShloMosaic.TcCoe Idealize.ShloMosaic.ValueIdx Idealize.SL.Sem

/-- The offset of a rectangle that starts at the origin of a rank-2 shape. -/
theorem origin2 : (![0, 0] : Fin 2 → Nat) = fun _ => 0 := funext fun a => by fin_cases a <;> rfl
/-- The same at rank 1. -/
theorem origin1 : (![0] : Fin 1 → Nat) = fun _ => 0 := funext fun a => by fin_cases a; rfl

/-- The column of row sums the body passes on is the lane sum of the block before normalisation. -/
theorem pay3_eq (x0 x1 x2 : Vec Ideal S4096x128 .f32) (x3 : Vec Ideal S384x128 .f32) (x4 : Vec Ideal S128 .f32)
    (x5 : Vec Ideal S128x128 .f32) (x6 : Vec Ideal S128 .f32) (x7 : Vec Ideal S128x128 .f32) (x8 : Vec Ideal S128 .f32) :
    k1_pay3 (F := Ideal) x0 x1 x2 x3 x4 x5 x6 x7 x8 = KernelNorm.rowSums (k1_pay2 (F := Ideal) x0 x1 x2 x3 x4 x5 x6 x7 x8) := rfl

/-- The output block the body leaves, from the eleven input blocks: the edge update of 4096 rows. -/
theorem out_eq (x0 x1 x2 : Vec Ideal S4096x128 .f32) (x3 : Vec Ideal S384x128 .f32) (x4 : Vec Ideal S128 .f32)
    (x5 : Vec Ideal S128x128 .f32) (x6 : Vec Ideal S128 .f32) (x7 : Vec Ideal S128x128 .f32) (x8 x9 x10 : Vec Ideal S128 .f32) :
    out1_11 (F := Ideal) x0 x1 x2 x3 x4 x5 x6 x7 x8 x9 x10 = edgeOut (n := 4096) x0 x1 x2 x3 x4 x5 x6 x7 x8 x9 x10 := by
  unfold out1_11
  rw [View.canon_unit_zero origin2]
  simp only [View.ld_unit_zero (S := S4096x128) origin2, View.ld_unit_zero (S := S384x128) origin2,
    View.ld_unit_zero (S := S128x128) origin2, View.ld_unit_zero (S := S128) origin1]
  funext i
  obtain ⟨p, q, rfl⟩ : ∃ (p : Fin 4096) (q : Fin 128), i = ix2 p q := ⟨i 0, i 1, eq_ix2 i⟩
  rw [edgeOut_ix2, pay3_eq, KernelNorm.pay1_apply]
  unfold rowOut
  congr 1
  funext j
  exact KernelMlp.pay2_apply x0 x1 x2 x3 x4 x5 x6 x7 x8 p j

end Cert.KernelIdeal.BodyValue

end
-- ==== Proof.Region1.lean ====
/-
  Region 1: the edge update. Grid point t works on rows 4096·t … 4096·t + 4095 of the three row arrays and on the whole of
  every weight array, and the update is local to rows, so the 125 blocks written back tile the edge update of the whole arrays.
-/
import proofs.«419849_j7627861918026_1_alg».proof.Proof.Gen.KernelIdeal.Frame
import proofs.«419849_j7627861918026_1_alg».proof.Proof.Spec
import proofs.«419849_j7627861918026_1_alg».proof.Proof.BodyValue
import Idealize.ShloMosaic.Lib.Pipeline.Value
import Idealize.ShloMosaic.Lib.ValueIdx

set_option maxRecDepth 16384

noncomputable section

namespace Cert.KernelIdeal.Region1

open Cert.KernelIdeal Cert.KernelIdeal.Gen Cert.EdgeSpec
open Idealize.ShloMosaic Idealize.ShloMosaic.TcCoe Idealize.ShloMosaic.ValueIdx Idealize.SL.Sem
open Idealize.ShloMosaic.Pipeline (Dat Cfg Window)

/-- The index maps over the grid: at point `t` the blocks of the three row arrays and of the output start at row `4096 · t`,
    column 0. -/
theorem idx_rows : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_11.index t (0 : Fin 2) = t.val ∧ win1_11.index t (1 : Fin 2) = 0 :=
  (by decide +kernel : ∀ t : Fin grid1.N, _)

/-- Every weight array is one block, at the origin, at every point. -/
theorem idx_weights : ∀ t : Fin cfg1.N,
    win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = 0 ∧ win1_7.index t (1 : Fin 2) = 0
    ∧ win1_8.index t (0 : Fin 1) = 0
    ∧ win1_9.index t (0 : Fin 1) = 0
    ∧ win1_10.index t (0 : Fin 1) = 0 :=
  (by decide +kernel : ∀ t : Fin grid1.N, _)

/-- Row `p` of the block of the destination atoms' features at point `t` is row `4096 · t + p` of the array. -/
theorem rows_dst (V : (c : Dev nD) → (b : Ref sig .tc) → Buf (Elt Ideal) ((c : Thread nD τ).loc b)) (c : Dev nD)
    (t : Fin cfg1.N) (p : Fin 4096) (hp : t.val * 4096 + p.val < 512000) :
    row (iblk1 (F := Ideal) V c 0 t : Mat 4096 128) p = row (V c main_v5 : Mat 512000 128) ⟨t.val * 4096 + p.val, hp⟩ := by
  funext q
  show (iblk1 (F := Ideal) V c 0 t : Mat 4096 128) (ix2 p q) = (V c main_v5 : Mat 512000 128) (ix2 ⟨t.val * 4096 + p.val, hp⟩ q)
  unfold iblk1
  rw [View.read_apply]
  show (V c main_v5 : Mat 512000 128) (((cfg1.win 0).blk t).view.emb (ix2 p q)) = _
  congr 1
  obtain ⟨e0, e1, e2, e3, e4, e5, -⟩ := idx_rows t
  funext a
  apply Fin.ext
  match a with
  | ⟨0, _⟩ => show win1_0.index t (0 : Fin 2) * 4096 + 1 * p.val = t.val * 4096 + p.val; omega
  | ⟨1, _⟩ => show win1_0.index t (1 : Fin 2) * 128 + 1 * q.val = q.val; omega

/-- Row `p` of the block of the source atoms' features at point `t` is row `4096 · t + p` of the array. -/
theorem rows_src (V : (c : Dev nD) → (b : Ref sig .tc) → Buf (Elt Ideal) ((c : Thread nD τ).loc b)) (c : Dev nD)
    (t : Fin cfg1.N) (p : Fin 4096) (hp : t.val * 4096 + p.val < 512000) :
    row (iblk1 (F := Ideal) V c 1 t : Mat 4096 128) p = row (V c main_v6 : Mat 512000 128) ⟨t.val * 4096 + p.val, hp⟩ := by
  funext q
  show (iblk1 (F := Ideal) V c 1 t : Mat 4096 128) (ix2 p q) = (V c main_v6 : Mat 512000 128) (ix2 ⟨t.val * 4096 + p.val, hp⟩ q)
  unfold iblk1
  rw [View.read_apply]
  show (V c main_v6 : Mat 512000 128) (((cfg1.win 1).blk t).view.emb (ix2 p q)) = _
  congr 1
  obtain ⟨e0, e1, e2, e3, e4, e5, -⟩ := idx_rows t
  funext a
  apply Fin.ext
  match a with
  | ⟨0, _⟩ => show win1_1.index t (0 : Fin 2) * 4096 + 1 * p.val = t.val * 4096 + p.val; omega
  | ⟨1, _⟩ => show win1_1.index t (1 : Fin 2) * 128 + 1 * q.val = q.val; omega

/-- Row `p` of the block of the edges' old features at point `t` is row `4096 · t + p` of the array. -/
theorem rows_edge (V : (c : Dev nD) → (b : Ref sig .tc) → Buf (Elt Ideal) ((c : Thread nD τ).loc b)) (c : Dev nD)
    (t : Fin cfg1.N) (p : Fin 4096) (hp : t.val * 4096 + p.val < 512000) :
    row (iblk1 (F := Ideal) V c 2 t : Mat 4096 128) p = row (V c main_arg1 : Mat 512000 128) ⟨t.val * 4096 + p.val, hp⟩ := by
  funext q
  show (iblk1 (F := Ideal) V c 2 t : Mat 4096 128) (ix2 p q) = (V c main_arg1 : Mat 512000 128) (ix2 ⟨t.val * 4096 + p.val, hp⟩ q)
  unfold iblk1
  rw [View.read_apply]
  show (V c main_arg1 : Mat 512000 128) (((cfg1.win 2).blk t).view.emb (ix2 p q)) = _
  congr 1
  obtain ⟨e0, e1, e2, e3, e4, e5, -⟩ := idx_rows t
  funext a
  apply Fin.ext
  match a with
  | ⟨0, _⟩ => show win1_2.index t (0 : Fin 2) * 4096 + 1 * p.val = t.val * 4096 + p.val; omega
  | ⟨1, _⟩ => show win1_2.index t (1 : Fin 2) * 128 + 1 * q.val = q.val; omega

/-- The one block of the first layer's weights is the array. -/
theorem blk_w1 (V : (c : Dev nD) → (b : Ref sig .tc) → Buf (Elt Ideal) ((c : Thread nD τ).loc b)) (c : Dev nD)
    (t : Fin cfg1.N) : (iblk1 (F := Ideal) V c 3 t : Mat 384 128) = (V c main_arg4 : Mat 384 128) := by
  funext y
  obtain ⟨p, q, rfl⟩ : ∃ (p : Fin 384) (q : Fin 128), y = ix2 p q := ⟨y 0, y 1, eq_ix2 y⟩
  unfold iblk1
  rw [View.read_apply]
  show (V c main_arg4 : Mat 384 128) (((cfg1.win 3).blk t).view.emb (ix2 p q)) = _
  congr 1
  obtain ⟨e3a, e3b, e4, e5a, e5b, e6, e7a, e7b, e8, e9, e10⟩ := idx_weights t
  funext a
  apply Fin.ext
  match a with
  | ⟨0, _⟩ => show win1_3.index t (0 : Fin 2) * 384 + 1 * p.val = p.val; omega
  | ⟨1, _⟩ => show win1_3.index t (1 : Fin 2) * 128 + 1 * q.val = q.val; omega

/-- The one block of the first layer's bias is the array. -/
theorem blk_b1 (V : (c : Dev nD) → (b : Ref sig .tc) → Buf (Elt Ideal) ((c : Thread nD τ).loc b)) (c : Dev nD)
    (t : Fin cfg1.N) : (iblk1 (F := Ideal) V c 4 t : Vc 128) = (V c main_arg5 : Vc 128) := by
  funext y
  obtain ⟨q, rfl⟩ : ∃ q : Fin 128, y = ix1 q := ⟨y 0, eq_ix1 y⟩
  unfold iblk1
  rw [View.read_apply]
  show (V c main_arg5 : Vc 128) (((cfg1.win 4).blk t).view.emb (ix1 q)) = _
  congr 1
  obtain ⟨e3a, e3b, e4, e5a, e5b, e6, e7a, e7b, e8, e9, e10⟩ := idx_weights t
  funext a
  apply Fin.ext
  match a with
  | ⟨0, _⟩ => show win1_4.index t (0 : Fin 1) * 128 + 1 * q.val = q.val; omega

/-- The one block of the second layer's weights is the array. -/
theorem blk_w2 (V : (c : Dev nD) → (b : Ref sig .tc) → Buf (Elt Ideal) ((c : Thread nD τ).loc b)) (c : Dev nD)
    (t : Fin cfg1.N) : (iblk1 (F := Ideal) V c 5 t : Mat 128 128) = (V c main_arg6 : Mat 128 128) := by
  funext y
  obtain ⟨p, q, rfl⟩ : ∃ (p : Fin 128) (q : Fin 128), y = ix2 p q := ⟨y 0, y 1, eq_ix2 y⟩
  unfold iblk1
  rw [View.read_apply]
  show (V c main_arg6 : Mat 128 128) (((cfg1.win 5).blk t).view.emb (ix2 p q)) = _
  congr 1
  obtain ⟨e3a, e3b, e4, e5a, e5b, e6, e7a, e7b, e8, e9, e10⟩ := idx_weights t
  funext a
  apply Fin.ext
  match a with
  | ⟨0, _⟩ => show win1_5.index t (0 : Fin 2) * 128 + 1 * p.val = p.val; omega
  | ⟨1, _⟩ => show win1_5.index t (1 : Fin 2) * 128 + 1 * q.val = q.val; omega

/-- The one block of the second layer's bias is the array. -/
theorem blk_b2 (V : (c : Dev nD) → (b : Ref sig .tc) → Buf (Elt Ideal) ((c : Thread nD τ).loc b)) (c : Dev nD)
    (t : Fin cfg1.N) : (iblk1 (F := Ideal) V c 6 t : Vc 128) = (V c main_arg7 : Vc 128) := by
  funext y
  obtain ⟨q, rfl⟩ : ∃ q : Fin 128, y = ix1 q := ⟨y 0, eq_ix1 y⟩
  unfold iblk1
  rw [View.read_apply]
  show (V c main_arg7 : Vc 128) (((cfg1.win 6).blk t).view.emb (ix1 q)) = _
  congr 1
  obtain ⟨e3a, e3b, e4, e5a, e5b, e6, e7a, e7b, e8, e9, e10⟩ := idx_weights t
  funext a
  apply Fin.ext
  match a with
  | ⟨0, _⟩ => show win1_6.index t (0 : Fin 1) * 128 + 1 * q.val = q.val; omega

/-- The one block of the third layer's weights is the array. -/
theorem blk_w3 (V : (c : Dev nD) → (b : Ref sig .tc) → Buf (Elt Ideal) ((c : Thread nD τ).loc b)) (c : Dev nD)
    (t : Fin cfg1.N) : (iblk1 (F := Ideal) V c 7 t : Mat 128 128) = (V c main_arg8 : Mat 128 128) := by
  funext y
  obtain ⟨p, q, rfl⟩ : ∃ (p : Fin 128) (q : Fin 128), y = ix2 p q := ⟨y 0, y 1, eq_ix2 y⟩
  unfold iblk1
  rw [View.read_apply]
  show (V c main_arg8 : Mat 128 128) (((cfg1.win 7).blk t).view.emb (ix2 p q)) = _
  congr 1
  obtain ⟨e3a, e3b, e4, e5a, e5b, e6, e7a, e7b, e8, e9, e10⟩ := idx_weights t
  funext a
  apply Fin.ext
  match a with
  | ⟨0, _⟩ => show win1_7.index t (0 : Fin 2) * 128 + 1 * p.val = p.val; omega
  | ⟨1, _⟩ => show win1_7.index t (1 : Fin 2) * 128 + 1 * q.val = q.val; omega

/-- The one block of the third layer's bias is the array. -/
theorem blk_b3 (V : (c : Dev nD) → (b : Ref sig .tc) → Buf (Elt Ideal) ((c : Thread nD τ).loc b)) (c : Dev nD)
    (t : Fin cfg1.N) : (iblk1 (F := Ideal) V c 8 t : Vc 128) = (V c main_arg9 : Vc 128) := by
  funext y
  obtain ⟨q, rfl⟩ : ∃ q : Fin 128, y = ix1 q := ⟨y 0, eq_ix1 y⟩
  unfold iblk1
  rw [View.read_apply]
  show (V c main_arg9 : Vc 128) (((cfg1.win 8).blk t).view.emb (ix1 q)) = _
  congr 1
  obtain ⟨e3a, e3b, e4, e5a, e5b, e6, e7a, e7b, e8, e9, e10⟩ := idx_weights t
  funext a
  apply Fin.ext
  match a with
  | ⟨0, _⟩ => show win1_8.index t (0 : Fin 1) * 128 + 1 * q.val = q.val; omega

/-- The one block of the normalisation's scale is the array. -/
theorem blk_gamma (V : (c : Dev nD) → (b : Ref sig .tc) → Buf (Elt Ideal) ((c : Thread nD τ).loc b)) (c : Dev nD)
    (t : Fin cfg1.N) : (iblk1 (F := Ideal) V c 9 t : Vc 128) = (V c main_arg10 : Vc 128) := by
  funext y
  obtain ⟨q, rfl⟩ : ∃ q : Fin 128, y = ix1 q := ⟨y 0, eq_ix1 y⟩
  unfold iblk1
  rw [View.read_apply]
  show (V c main_arg10 : Vc 128) (((cfg1.win 9).blk t).view.emb (ix1 q)) = _
  congr 1
  obtain ⟨e3a, e3b, e4, e5a, e5b, e6, e7a, e7b, e8, e9, e10⟩ := idx_weights t
  funext a
  apply Fin.ext
  match a with
  | ⟨0, _⟩ => show win1_9.index t (0 : Fin 1) * 128 + 1 * q.val = q.val; omega

/-- The one block of the normalisation's offset is the array. -/
theorem blk_beta (V : (c : Dev nD) → (b : Ref sig .tc) → Buf (Elt Ideal) ((c : Thread nD τ).loc b)) (c : Dev nD)
    (t : Fin cfg1.N) : (iblk1 (F := Ideal) V c 10 t : Vc 128) = (V c main_arg11 : Vc 128) := by
  funext y
  obtain ⟨q, rfl⟩ : ∃ q : Fin 128, y = ix1 q := ⟨y 0, eq_ix1 y⟩
  unfold iblk1
  rw [View.read_apply]
  show (V c main_arg11 : Vc 128) (((cfg1.win 10).blk t).view.emb (ix1 q)) = _
  congr 1
  obtain ⟨e3a, e3b, e4, e5a, e5b, e6, e7a, e7b, e8, e9, e10⟩ := idx_weights t
  funext a
  apply Fin.ext
  match a with
  | ⟨0, _⟩ => show win1_10.index t (0 : Fin 1) * 128 + 1 * q.val = q.val; omega

/-- What point `t` writes back is block `t` of the edge update of the whole arrays: the body leaves the edge update of its
    4096 rows, those rows are rows `4096 · t …` of the arrays, and the update of a row reads only that row. -/
theorem flushed_eq (V : (c : Dev nD) → (b : Ref sig .tc) → Buf (Elt Ideal) ((c : Thread nD τ).loc b)) (c : Dev nD) (t : Fin cfg1.N) :
    (dat1 (F := Ideal) V c).flushed 11 t
      = ((cfg1.win 11).blk t).view.read (Elt Ideal) (edgeOut (n := 512000) (V c main_v5) (V c main_v6) (V c main_arg1) (V c main_arg4) (V c main_arg5) (V c main_arg6)
          (V c main_arg7) (V c main_arg8) (V c main_arg9) (V c main_arg10) (V c main_arg11)) := by
  show (cfg1.win 11).cut (grid1.coords t) ((dat1 (F := Ideal) V c).after 11 t) = _
  rw [after1_11, BodyValue.out_eq]
  have hw1 := blk_w1 V c t
  have hb1 := blk_b1 V c t
  have hw2 := blk_w2 V c t
  have hb2 := blk_b2 V c t
  have hw3 := blk_w3 V c t
  have hb3 := blk_b3 V c t
  have hg := blk_gamma V c t
  have hbe := blk_beta V c t
  rw [hw1, hb1, hw2, hb2, hw3, hb3, hg, hbe]
  funext y
  obtain ⟨p, q, rfl⟩ : ∃ (p : Fin 4096) (q : Fin 128), y = ix2 p q := ⟨y 0, y 1, eq_ix2 y⟩
  have hN : cfg1.N = 125 := N_1
  have hp : t.val * 4096 + p.val < 512000 := by have := t.isLt; have := p.isLt; omega
  obtain ⟨-, -, -, -, -, -, e0, e1⟩ := idx_rows t
  have hemb : ((cfg1.win 11).blk t).view.emb (ix2 p q) = (ix2 ⟨t.val * 4096 + p.val, hp⟩ q : S512000x128.Idx) := by
    funext a
    apply Fin.ext
    match a with
    | ⟨0, _⟩ => show win1_11.index t (0 : Fin 2) * 4096 + 1 * p.val = t.val * 4096 + p.val; omega
    | ⟨1, _⟩ => show win1_11.index t (1 : Fin 2) * 128 + 1 * q.val = q.val; omega
  rw [View.read_apply, hemb]
  exact edgeOut_row_congr _ _ _ _ _ _ _ _ _ _ _ _ _ _ ⟨t.val * 4096 + p.val, hp⟩ p q (rows_dst V c t p hp) (rows_src V c t p hp) (rows_edge V c t p hp)

/-- An index of the output array is in point `t`'s block iff each coordinate is in the block's range on its axis. -/
theorem mem_blk (t : Fin cfg1.N) (i : S512000x128.Idx) :
    i ∈ ((cfg1.win 11).blk t).view.set
      ↔ ∀ a : Fin 2, win1_11.index t a * S4096x128.size a ≤ (i a).val ∧ (i a).val < win1_11.index t a * S4096x128.size a + S4096x128.size a := by
  show i ∈ ((View.whole main_v7).slice (win1_11.rect t)).set ↔ _
  rw [View.set_slice_whole, Rect.mem_set_unit]
  exact Iff.rfl

/-- The 125 blocks of 4096 rows tile the 512000 rows: row `r` is in the block of point `r / 4096`. -/
theorem covered (i : S512000x128.Idx) :
    ∃ t : Fin cfg1.N, (cfg1.win 11).flush t = true ∧ i ∈ ((cfg1.win 11).blk t).view.set := by
  have hN : cfg1.N = 125 := N_1
  have hi0 : (i 0).val < 512000 := (i 0).isLt
  have hi1 : (i 1).val < 128 := (i 1).isLt
  refine ⟨⟨(i 0).val / 4096, by omega⟩, flush1_11 _, ?_⟩
  rw [mem_blk]
  obtain ⟨-, -, -, -, -, -, e0, e1⟩ := idx_rows ⟨(i 0).val / 4096, by omega⟩
  intro a
  match a with
  | ⟨0, _⟩ =>
    show win1_11.index _ (0 : Fin 2) * 4096 ≤ (i 0).val ∧ (i 0).val < win1_11.index _ (0 : Fin 2) * 4096 + 4096
    rw [e0]
    show (i 0).val / 4096 * 4096 ≤ (i 0).val ∧ (i 0).val < (i 0).val / 4096 * 4096 + 4096
    omega
  | ⟨1, _⟩ =>
    show win1_11.index _ (1 : Fin 2) * 128 ≤ (i 1).val ∧ (i 1).val < win1_11.index _ (1 : Fin 2) * 128 + 128
    rw [e1]
    omega

/-- Whatever the device's buffers hold when region 1 is entered (`V`), its output array ends holding the edge update of
    the arrays as found. -/
theorem value (V : (c : Dev nD) → (b : Ref sig .tc) → Buf (Elt Ideal) ((c : Thread nD τ).loc b)) (c : Dev nD) :
    (dat1 (F := Ideal) V c).arrAt 11 cfg1.N
      = edgeOut (n := 512000) (V c main_v5) (V c main_v6) (V c main_arg1) (V c main_arg4) (V c main_arg5) (V c main_arg6)
          (V c main_arg7) (V c main_arg8) (V c main_arg9) (V c main_arg10) (V c main_arg11) :=
  (dat1 (F := Ideal) V c).arrAt_eq_of_cover 11 _ (fun t _ => flushed_eq V c t) covered

end Cert.KernelIdeal.Region1

end
-- ==== Proof.HostStretch.lean ====
/-
  Between the two regions the host takes, for each of the two rows of the edge-index array, the row of start indices
  (a negative index moved up by 32000), gathers the matching rows of the atoms' scalar features, and replaces a
  gathered row by a fill value where its start index is outside 0 … 31999. When every edge index is in 0 … 31999 no row is
  replaced: the two arrays region 1 finds are the plain gathers.
-/
import proofs.«419849_j7627861918026_1_alg».proof.Proof.Gen.KernelIdeal.Frame
import Idealize.ShloMosaic.Lib.StableHlo.Run
import Idealize.ShloMosaic.Lib.StableHlo.Predicate
import Idealize.ShloMosaic.Lib.Pipeline.Value
import Idealize.ShloMosaic.Lib.ValueIdx

set_option maxRecDepth 16384

noncomputable section

namespace Cert.KernelIdeal.HostStretch

open Cert.KernelIdeal Cert.KernelIdeal.Gen
open Idealize.ShloMosaic Idealize.ShloMosaic.TcCoe Idealize.ShloMosaic.ValueIdx Idealize.SL.Sem Idealize.ShloMosaic.StableHlo

/-- An edge index in the range of the atoms: signed, at least 0 and below 32000. -/
def InRange (w : BitVec 32) : Prop := IntOp.cmpi .sge w 0#32 = 1#1 ∧ IntOp.cmpi .slt w 32000#32 = 1#1

/-- The column of start indices made from one row (a [1, 512000] slice) of the edge-index array: flattened, a negative
    entry moved up by 32000, laid out as a [512000, 1] column. -/
def colOf (s : IVec S1x512000 32) : IVec S512000x1 32 :=
  broadcastInDim S512000x1 ![0] bcast_S512000_S512000x1_0
    (select (cmpi .slt (shapeCast S512000 s shapeCasts_S1x512000_S512000) (broadcastInDim S512000 ![] bcast_S_S512000 (constantI S_ 32 0#32)))
      (addi (shapeCast S512000 s shapeCasts_S1x512000_S512000) (broadcastInDim S512000 ![] bcast_S_S512000 (constantI S_ 32 32000#32)))
      (shapeCast S512000 s shapeCasts_S1x512000_S512000))
/-- The start-index column of the destination atoms (row 0 of the edge-index array). -/
def col0 (x2 : IVec S2x512000 32) : IVec S512000x1 32 := colOf (extractStridedSlice S1x512000 ![0, 0] x2 slices_S2x512000_S1x512000_0_0)
/-- The start-index column of the source atoms (row 1). -/
def col1 (x2 : IVec S2x512000 32) : IVec S512000x1 32 := colOf (extractStridedSlice S1x512000 ![1, 0] x2 slices_S2x512000_S1x512000_1_0)

/-! ## Words in range -/

/-- A word in range is not negative: the signed comparison with 0 fails. -/
theorem slt_zero_of_inRange {w : BitVec 32} (hw : InRange w) : IntOp.cmpi .slt w 0#32 = 0#1 := by
  have h0 := hw.1
  simp only [IntOp.cmpi, BitVec.sle, Predicate.ofBool_eq_one_iff, decide_eq_true_eq] at h0
  simp only [IntOp.cmpi, BitVec.slt]
  rw [decide_eq_false (by omega)]
  rfl

/-- A word below 32000 is at most 31999. -/
theorem sle_of_inRange {w : BitVec 32} (hw : InRange w) : IntOp.cmpi .sle w 31999#32 = 1#1 := by
  have h1 := hw.2
  simp only [IntOp.cmpi, BitVec.slt, Predicate.ofBool_eq_one_iff, decide_eq_true_eq] at h1
  have a : (32000#32 : BitVec 32).toInt = 32000 := by decide
  have b : (31999#32 : BitVec 32).toInt = 31999 := by decide
  simp only [IntOp.cmpi, BitVec.sle, Predicate.ofBool_eq_one_iff, decide_eq_true_eq]
  omega

/-- Moving a negative word up by 32000 leaves a word in range as it is. -/
theorem wrap_of_inRange {w : BitVec 32} (hw : InRange w) :
    Scalar.select (IntOp.cmpi .slt w 0#32) (IntOp.addi w 32000#32) w = w := by
  rw [slt_zero_of_inRange hw]; exact select_zero _ _

/-! ## The start-index column of a row of words in range -/

/-- Every entry of the column made from a row of words in range is one of the row's words unchanged, hence in range. -/
theorem colOf_inRange (s : IVec S1x512000 32) (hs : ∀ i, InRange (s i)) (k : S512000x1.Idx) : InRange (colOf s k) := by
  have key : ∀ j : S512000.Idx, InRange
      (select (cmpi .slt (shapeCast S512000 s shapeCasts_S1x512000_S512000) (broadcastInDim S512000 ![] bcast_S_S512000 (constantI S_ 32 0#32)))
        (addi (shapeCast S512000 s shapeCasts_S1x512000_S512000) (broadcastInDim S512000 ![] bcast_S_S512000 (constantI S_ 32 32000#32)))
        (shapeCast S512000 s shapeCasts_S1x512000_S512000) j) := fun j => by
    have hin : InRange (shapeCast S512000 s shapeCasts_S1x512000_S512000 j) := hs _
    show InRange (Scalar.select (IntOp.cmpi .slt (shapeCast S512000 s shapeCasts_S1x512000_S512000 j) 0#32)
      (IntOp.addi (shapeCast S512000 s shapeCasts_S1x512000_S512000 j) 32000#32) (shapeCast S512000 s shapeCasts_S1x512000_S512000 j))
    rw [wrap_of_inRange hin]; exact hin
  exact key _

/-! ## The reduction by "and" of an array of ones -/

/-- A reduction by "and" from 1 of an array whose every entry is 1 is 1 at every result index. -/
theorem reduce_andi_ones {s t u : Shape} {axes : List (Fin s.rank)} (x : s.Idx → BitVec 1) (init : u.Idx → BitVec 1)
    (h : s.ReducesTo axes t) (hu : 0 < u.numel) (j : t.Idx) (hx : ∀ i, x i = 1#1) (hi : init (Shape.Idx.first hu) = 1#1) :
    Host.reduce IntOp.andi x init h hu j = 1#1 := by
  classical
  rw [Host.reduce_eq_fold, hi]
  generalize (Finset.univ.filter fun i => h.drop i = j) = S
  induction S using Finset.induction_on with
  | empty => rfl
  | insert a S ha ih => rw [Finset.fold_insert ha, ih, hx]; rfl

/-! ## The take of rows at a column in range -/

/-- The two bound checks of a start-index column, entry by entry: at least 0 and at most 31999. -/
def inBounds (col : IVec S512000x1 32) : IVec S512000x1 1 :=
  andi (cmpi .sge col (broadcastInDim S512000x1 ![] bcast_S_S512000x1 (constantI S_ 32 0#32)))
    (cmpi .sle col (broadcastInDim S512000x1 ![0, 1] bcast_S1x1_S512000x1_0_1 (broadcastInDim S1x1 ![1] bcast_S1_S1x1_1 (constantI S1 32 31999#32))))

/-- The rows taken at the start-index column of one row of the edge-index array: where the reduction by "and" of the two
    bound checks holds the gathered row, elsewhere the fill. -/
def takeRows {α : Type} (x0 : S32000x128.Idx → α) (fill : S_.Idx → α) (s : IVec S1x512000 32) : S512000x128.Idx → α :=
  select
    (broadcastInDim S512000x128 ![0] bcast_S512000_S512000x128_0
      (Host.reduce IntOp.andi (inBounds (colOf s)) (constantI S_ 1 1#1) reducesTo_S512000x1_S512000_d1 h_S_))
    (Host.gather gather_S32000x128_S512000x1_S512000x128_1_0_n_n_0_1_1128 x0 (colOf s))
    (broadcastInDim S512000x128 ![] bcast_S_S512000x128 fill)

/-- With every word of the row in range both bound checks hold at every entry, so no row is replaced. -/
theorem takeRows_of_inRange {α : Type} (x0 : S32000x128.Idx → α) (fill : S_.Idx → α) (s : IVec S1x512000 32) (hs : ∀ i, InRange (s i)) :
    takeRows x0 fill s = Host.gather gather_S32000x128_S512000x1_S512000x128_1_0_n_n_0_1_1128 x0 (colOf s) := by
  have hmask : ∀ j, Host.reduce IntOp.andi (inBounds (colOf s)) (constantI S_ 1 1#1) reducesTo_S512000x1_S512000_d1 h_S_ j = 1#1 :=
    fun j => reduce_andi_ones _ _ _ _ j (fun k => by
      show IntOp.andi (IntOp.cmpi .sge (colOf s k) 0#32) (IntOp.cmpi .sle (colOf s k) 31999#32) = 1#1
      rw [(colOf_inRange s hs k).1, sle_of_inRange (colOf_inRange s hs k)]; rfl) rfl
  have hb : broadcastInDim S512000x128 ![0] bcast_S512000_S512000x128_0
      (Host.reduce IntOp.andi (inBounds (colOf s)) (constantI S_ 1 1#1) reducesTo_S512000x1_S512000_d1 h_S_) = fun _ => 1#1 :=
    funext fun i => hmask _
  unfold takeRows
  rw [hb]
  funext i
  exact select_one _ _

variable (m : (ℓ : Loc nD τ sig) → Buf (Elt Ideal) ℓ) (ρ : Dev nD → PrngReg)

/-- The edge-index array is as launched at region 0's exit: region 0 does not write it. -/
theorem W1_main_arg2 (c : Dev nD) : W1 (F := Ideal) m ρ c (Proc.devRef .tc main_arg2) = m ((c : Thread nD τ).loc main_arg2) :=
  (W1_of_ne m ρ c main_arg2 (by decide)).trans rfl

/-- What the first take leaves at region 1's entry: the rows of region 0's output taken at the column of row 0 of the
    edge-index array (the second take does not write them). -/
theorem W4_main_v5 (c : Dev nD) :
    W4 (F := Ideal) m ρ c (Proc.devRef .tc main_v5)
      = takeRows (W1 (F := Ideal) m ρ c (Proc.devRef .tc main_v0)) (constant (F := Ideal) S_ .f32 0x7FC00000#32)
          (extractStridedSlice S1x512000 ![0, 0] (W1 (F := Ideal) m ρ c (Proc.devRef .tc main_arg2)) slices_S2x512000_S1x512000_0_0) := by
  refine (StableHlo.after_of_forall_not_mem (b := Proc.devRef .tc main_v5) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans ?_
  show StableHlo.after hostOps1_1 (W2 (F := Ideal) m ρ c) (Proc.devRef .tc main_v5) = _
  after_results_simp
  simp only [TRef.toBuf, TRef.ofBuf, cast_eq]
  unfold takeRows inBounds colOf
  rfl

/-- What the second take leaves: the rows of region 0's output (which the first take does not write) taken at the column of
    row 1 of the edge-index array. -/
theorem W4_main_v6 (c : Dev nD) :
    W4 (F := Ideal) m ρ c (Proc.devRef .tc main_v6)
      = takeRows (W1 (F := Ideal) m ρ c (Proc.devRef .tc main_v0)) (constant (F := Ideal) S_ .f32 0x7FC00000#32)
          (extractStridedSlice S1x512000 ![1, 0] (W1 (F := Ideal) m ρ c (Proc.devRef .tc main_arg2)) slices_S2x512000_S1x512000_1_0) := by
  show StableHlo.after hostOps1_2 (W3 (F := Ideal) m ρ c) (Proc.devRef .tc main_v6) = _
  after_results_simp
  simp only [TRef.toBuf, TRef.ofBuf, cast_eq]
  unfold takeRows inBounds colOf
  rfl

/-- The destination rows region 1 finds: the gather of region 0's output at the destination column. -/
theorem V4_main_v5 (c : Dev nD) (h : ∀ i, InRange (m ((c : Thread nD τ).loc main_arg2) i)) :
    V4 (F := Ideal) m ρ c main_v5
      = Host.gather gather_S32000x128_S512000x1_S512000x128_1_0_n_n_0_1_1128 (V1 (F := Ideal) m ρ c main_v0) (col0 (m ((c : Thread nD τ).loc main_arg2))) := by
  show W4 (F := Ideal) m ρ c (Proc.devRef .tc main_v5) = _
  rw [W4_main_v5, W1_main_arg2]
  exact takeRows_of_inRange _ _ _ (fun i => h _)

/-- The source rows region 1 finds: the gather of region 0's output at the source column. -/
theorem V4_main_v6 (c : Dev nD) (h : ∀ i, InRange (m ((c : Thread nD τ).loc main_arg2) i)) :
    V4 (F := Ideal) m ρ c main_v6
      = Host.gather gather_S32000x128_S512000x1_S512000x128_1_0_n_n_0_1_1128 (V1 (F := Ideal) m ρ c main_v0) (col1 (m ((c : Thread nD τ).loc main_arg2))) := by
  show W4 (F := Ideal) m ρ c (Proc.devRef .tc main_v6) = _
  rw [W4_main_v6, W1_main_arg2]
  exact takeRows_of_inRange _ _ _ (fun i => h _)

end Cert.KernelIdeal.HostStretch

end
-- ==== Proof.KernelValue.lean ====
/-
  The kernel program's result as one function of its argument arrays, when every edge index is in the atoms' range: the edge
  update of the two gathers of the matrix product and of the edge features. Region 0 leaves the matrix product; the host
  stretch gathers its rows; region 1 applies the edge update; no segment writes an argument array.
-/
import proofs.«419849_j7627861918026_1_alg».proof.Proof.Gen.KernelIdeal.Frame
import proofs.«419849_j7627861918026_1_alg».proof.Proof.Spec
import proofs.«419849_j7627861918026_1_alg».proof.Proof.Region0
import proofs.«419849_j7627861918026_1_alg».proof.Proof.Region1
import proofs.«419849_j7627861918026_1_alg».proof.Proof.HostStretch

set_option maxRecDepth 16384

noncomputable section

namespace Cert.KernelIdeal.KernelValue

open Cert.KernelIdeal Cert.KernelIdeal.Gen Cert.EdgeSpec Cert.KernelIdeal.HostStretch
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- What region 0 leaves in its output array: the matrix product of the launch contents of its two arguments. -/
theorem V1_main_v0 (c : Dev nD) :
    V1 (F := Ideal) m ρ c main_v0 = lin (m ((c : Thread nD τ).loc main_arg0)) (m ((c : Thread nD τ).loc main_arg3)) :=
  (W1_arr m ρ c 2).trans (Region0.value (V0 m ρ) c)

/-- An input array of region 1 that is an argument of the program holds, when the region is entered, its launch contents:
    the region does not write it, and at the end it holds them. -/
theorem V4_of_in (c : Dev nD) (w : Fin cfg1.W) (hw : (cfg1.win w).isOut = false) (b : Ref sig .tc) (hb : Pipeline.arrRef spec1 w = b)
    (hW5 : W5 (F := Ideal) m ρ c (Proc.devRef .tc b) = m ((c : Thread nD τ).loc b)) :
    V4 (F := Ideal) m ρ c b = m ((c : Thread nD τ).loc b) := by
  subst hb
  exact ((A_eq1 (V4 m ρ) c w).symm.trans (((dat1 (V4 m ρ) c).arrAt_in w hw _).symm.trans ((W5_arr m ρ c w).symm))).trans hW5

/-- The program's result array at the end. -/
theorem result (c : Dev nD) (h : ∀ i, InRange (m ((c : Thread nD τ).loc main_arg2) i)) :
    W5 (F := Ideal) m ρ c (Proc.devRef .tc main_v7)
      = edgeOut (n := 512000)
          (Host.gather gather_S32000x128_S512000x1_S512000x128_1_0_n_n_0_1_1128
            (lin (m ((c : Thread nD τ).loc main_arg0)) (m ((c : Thread nD τ).loc main_arg3))) (col0 (m ((c : Thread nD τ).loc main_arg2))))
          (Host.gather gather_S32000x128_S512000x1_S512000x128_1_0_n_n_0_1_1128
            (lin (m ((c : Thread nD τ).loc main_arg0)) (m ((c : Thread nD τ).loc main_arg3))) (col1 (m ((c : Thread nD τ).loc main_arg2))))
          (m ((c : Thread nD τ).loc main_arg1)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)) := by
  refine (W5_arr m ρ c 11).trans ((Region1.value (V4 m ρ) c).trans ?_)
  rw [V4_main_v5 m ρ c h, V4_main_v6 m ρ c h, V1_main_v0 m ρ c,
    V4_of_in m ρ c 2 rfl main_arg1 rfl (W5_main_arg1 m ρ c), V4_of_in m ρ c 3 rfl main_arg4 rfl (W5_main_arg4 m ρ c),
    V4_of_in m ρ c 4 rfl main_arg5 rfl (W5_main_arg5 m ρ c), V4_of_in m ρ c 5 rfl main_arg6 rfl (W5_main_arg6 m ρ c),
    V4_of_in m ρ c 6 rfl main_arg7 rfl (W5_main_arg7 m ρ c), V4_of_in m ρ c 7 rfl main_arg8 rfl (W5_main_arg8 m ρ c),
    V4_of_in m ρ c 8 rfl main_arg9 rfl (W5_main_arg9 m ρ c), V4_of_in m ρ c 9 rfl main_arg10 rfl (W5_main_arg10 m ρ c),
    V4_of_in m ρ c 10 rfl main_arg11 rfl (W5_main_arg11 m ρ c)]

end Cert.KernelIdeal.KernelValue

end
-- ==== Proof.PreDecode.lean ====
/-
  Reading the precondition: its last conjunct says that every entry of the edge-index array is, signed, at least 0 and
  below 32000.
-/
import proofs.«419849_j7627861918026_1_alg».proof.Defs
import proofs.«419849_j7627861918026_1_alg».proof.Proof.Gen.Pre_finite_inputs
import Idealize.ShloMosaic.Lib.ReduceAll
import Idealize.ShloMosaic.Lib.ValueIdx
import Idealize.ShloMosaic.Lib.StableHlo.Predicate

set_option maxRecDepth 16384

noncomputable section

namespace Cert.PreDecode

open Idealize.ShloMosaic Idealize.ShloMosaic.ValueIdx

/-- The shape of a scalar has exactly one index. -/
instance scalarIdx_subsingleton : Subsingleton Cert.Pre_finite_inputs.S_.Idx :=
  ⟨fun a b => funext fun d => d.elim0⟩

/-- The last part of the precondition: it is the conjunction of the earlier finiteness conjuncts with the conjunction,
    over all entries `w` of the index array, of `0 ≤ w` and `w < 32000` (signed). If the whole is one, the second
    conjunct is one, so each entry's pair of comparisons is one. -/
theorem part3_idx_in_range {F : FTy → Type} [FloatOps F]
    (a2 : IVec Cert.Pre_finite_inputs.S2x512000 32) (v48 : IVec Cert.Pre_finite_inputs.S_ 1)
    (v49 v50 : FVec F Cert.Pre_finite_inputs.S128 .f32)
    (h : Cert.Pre_finite_inputs.fn_part3 (F := F) a2 v48 v49 v50 ix0 = 1#1)
    (i : Cert.Pre_finite_inputs.S2x512000.Idx) :
    IntOp.cmpi .sge (a2 i) 0#32 = 1#1 ∧ IntOp.cmpi .slt (a2 i) 32000#32 = 1#1 := by
  unfold Cert.Pre_finite_inputs.fn_part3 at h
  dsimp only at h
  -- the outermost conjunction: keep its right conjunct, the conjunction over all entries
  have hall := (IntOp.andi_eq_one.1 h).2
  -- a conjunction over all entries that is one is one at each entry
  have hi := Host.reduce_andi_all _ _ _ _ _ hall i
  -- at entry `i`: the two comparisons, each against a constant broadcast to every entry
  exact IntOp.andi_eq_one.1 hi

/-- If the printed precondition evaluates to all ones on some arrays, every entry `w` of the index array satisfies
    `0 ≤ w` and `w < 32000` as signed words. -/
theorem idx_in_range {F : FTy → Type} [FloatOps F]
    (a0 : FVec F Cert.Pre_finite_inputs.S32000x256 .f32) (a1 : FVec F Cert.Pre_finite_inputs.S512000x128 .f32)
    (a2 : IVec Cert.Pre_finite_inputs.S2x512000 32) (a3 : FVec F Cert.Pre_finite_inputs.S256x128 .f32)
    (a4 : FVec F Cert.Pre_finite_inputs.S384x128 .f32) (a5 : FVec F Cert.Pre_finite_inputs.S128 .f32)
    (a6 : FVec F Cert.Pre_finite_inputs.S128x128 .f32) (a7 : FVec F Cert.Pre_finite_inputs.S128 .f32)
    (a8 : FVec F Cert.Pre_finite_inputs.S128x128 .f32) (a9 a10 a11 : FVec F Cert.Pre_finite_inputs.S128 .f32)
    (h : Cert.Pre_finite_inputs.fn (F := F) a0 a1 a2 a3 a4 a5 a6 a7 a8 a9 a10 a11 = fun _ => 1#1)
    (i : Cert.Pre_finite_inputs.S2x512000.Idx) :
    IntOp.cmpi .sge (a2 i) 0#32 = 1#1 ∧ IntOp.cmpi .slt (a2 i) 32000#32 = 1#1 := by
  have h0 := congrFun h ix0
  -- the precondition is a chain of three parts, each ending in the call of the next
  unfold Cert.Pre_finite_inputs.fn at h0
  dsimp only at h0
  unfold Cert.Pre_finite_inputs.fn_part1 at h0
  dsimp only at h0
  unfold Cert.Pre_finite_inputs.fn_part2 at h0
  dsimp only at h0
  exact part3_idx_in_range a2 _ _ _ h0 i

end Cert.PreDecode

end
-- ==== Proof.RefMlp.lean ====
/-
  The reference's operations up to the sum before normalisation, read at an index: the first is the matrix product; the two
  gathers and the edge features are joined along the columns and go through the three affine layers (the first two cut below
  at 0), and the edge features are added.
-/
import proofs.«419849_j7627861918026_1_alg».proof.Proof.Gen.ReferenceIdeal.Read
import proofs.«419849_j7627861918026_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefMlp

open Cert.ReferenceIdeal Cert.ReferenceIdeal.Gen Cert.ReferenceIdeal.Read Cert.EdgeSpec
open Idealize.ShloMosaic Idealize.ShloMosaic.TcCoe Idealize.ShloMosaic.ValueIdx Idealize.SL.Sem

/-- The reference's first operation is the matrix product. -/
theorem lin_eq (x0 : FVec Ideal S32000x256 .f32) (x3 : FVec Ideal S256x128 .f32) :
    val_main_v0 (F := Ideal) x0 x3 = lin x0 x3 := by
  funext i
  rw [val_main_v0_apply]
  unfold lin
  refine Finset.sum_congr rfl fun k _ => ?_
  have el : lidx_main_v0 i k = ix2 ⟨(i 0).val, idx2_lt0 i⟩ k :=
    funext fun a => Fin.ext (by match a with | ⟨0, _⟩ => rfl | ⟨1, _⟩ => rfl)
  have er : ridx_main_v0 i k = ix2 k ⟨(i 1).val, idx2_lt1 i⟩ :=
    funext fun a => Fin.ext (by match a with | ⟨0, _⟩ => rfl | ⟨1, _⟩ => rfl)
  rw [el, er]

/-- The joined array at row `e`, column `k`: the three rows joined end to end. -/
theorem v19_apply (x0 : FVec Ideal S32000x256 .f32) (x1 : FVec Ideal S512000x128 .f32) (x2 : IVec S2x512000 32)
    (x3 : FVec Ideal S256x128 .f32) (e : Fin 512000) (k : Fin 384) :
    val_main_v19 (F := Ideal) x0 x1 x2 x3 (ix2 e k)
      = cat3 (row (a := 512000) (b := 128) (val_main_v11 (F := Ideal) x0 x2 x3) e)
          (row (a := 512000) (b := 128) (val_main_v18 (F := Ideal) x0 x2 x3) e) (row (a := 512000) (b := 128) x1 e) k := by
  unfold val_main_v19 cat3 row
  generalize val_main_v11 (F := Ideal) x0 x2 x3 = d
  generalize val_main_v18 (F := Ideal) x0 x2 x3 = s
  by_cases h1 : k.val < 128
  · rw [dif_pos h1]
    refine concatenate_apply_piece (1 : Fin S512000x384.rank) _ _ (ix2 e k) 0 (by show (0 : Nat) < 3; omega) S512000x128 d rfl rfl 0 rfl
      (ix2 e ⟨k.val, h1⟩) (fun b hb => ?_) ?_
    · match b with
      | ⟨0, _⟩ => rfl
      | ⟨1, _⟩ => exact absurd rfl hb
    · show 0 + k.val = k.val
      omega
  · rw [dif_neg h1]
    by_cases h2 : k.val < 256
    · rw [dif_pos h2]
      refine concatenate_apply_piece (1 : Fin S512000x384.rank) _ _ (ix2 e k) 1 (by show (1 : Nat) < 3; omega) S512000x128 s rfl rfl 128 rfl
        (ix2 e ⟨k.val - 128, by omega⟩) (fun b hb => ?_) ?_
      · match b with
        | ⟨0, _⟩ => rfl
        | ⟨1, _⟩ => exact absurd rfl hb
      · show 128 + (k.val - 128) = k.val
        omega
    · rw [dif_neg h2]
      refine concatenate_apply_piece (1 : Fin S512000x384.rank) _ _ (ix2 e k) 2 (by show (2 : Nat) < 3; omega) S512000x128 x1 rfl rfl 256 rfl
        (ix2 e ⟨k.val - 256, by omega⟩) (fun b hb => ?_) ?_
      · match b with
        | ⟨0, _⟩ => rfl
        | ⟨1, _⟩ => exact absurd rfl hb
      · show 256 + (k.val - 256) = k.val
        have := k.isLt
        omega

/-- The first layer cut below at 0, at row `e`, column `j`. -/
theorem v24_apply (x0 : FVec Ideal S32000x256 .f32) (x1 : FVec Ideal S512000x128 .f32) (x2 : IVec S2x512000 32) (x3 : FVec Ideal S256x128 .f32) (x4 : FVec Ideal S384x128 .f32) (x5 : FVec Ideal S128 .f32) (e : Fin 512000) (j : Fin 128) :
    val_main_v24 (F := Ideal) x0 x1 x2 x3 x4 x5 (ix2 e j)
      = max (affine (cat3 (row (a := 512000) (b := 128) (val_main_v11 (F := Ideal) x0 x2 x3) e) (row (a := 512000) (b := 128) (val_main_v18 (F := Ideal) x0 x2 x3) e) (row (a := 512000) (b := 128) x1 e)) x4 x5 j) 0 := by
  have el : ∀ k : Fin 384, lidx_main_v20 (ix2 e j) k = ix2 e k := fun k =>
    funext fun a => Fin.ext (by match a with | ⟨0, _⟩ => rfl | ⟨1, _⟩ => rfl)
  have er : ∀ k : Fin 384, ridx_main_v20 (ix2 e j) k = ix2 k j := fun k =>
    funext fun a => Fin.ext (by match a with | ⟨0, _⟩ => rfl | ⟨1, _⟩ => rfl)
  have eb : idx_main_v21 (idx_main_v22 (ix2 e j)) = ix1 j :=
    funext fun a => Fin.ext (by match a with | ⟨0, _⟩ => rfl)
  rw [val_main_v24_apply, val_main_v23_apply, val_main_v20_apply, val_main_v22_apply, val_main_v21_apply,
    val_main_call0_v0_apply, val_main_call0_cst_apply]
  simp only [el, er, eb, v19_apply, Ideal.addf_def, Ideal.maximumf_def, Ideal.ofBits_def, Ideal.ofBits_zero_f32]
  rfl

/-- The second layer cut below at 0, at row `e`, column `j`. -/
theorem v29_apply (x0 : FVec Ideal S32000x256 .f32) (x1 : FVec Ideal S512000x128 .f32) (x2 : IVec S2x512000 32) (x3 : FVec Ideal S256x128 .f32) (x4 : FVec Ideal S384x128 .f32) (x5 : FVec Ideal S128 .f32) (x6 : FVec Ideal S128x128 .f32) (x7 : FVec Ideal S128 .f32) (e : Fin 512000) (j : Fin 128) :
    val_main_v29 (F := Ideal) x0 x1 x2 x3 x4 x5 x6 x7 (ix2 e j)
      = max (affine (fun t => max (affine (cat3 (row (a := 512000) (b := 128) (val_main_v11 (F := Ideal) x0 x2 x3) e) (row (a := 512000) (b := 128) (val_main_v18 (F := Ideal) x0 x2 x3) e) (row (a := 512000) (b := 128) x1 e)) x4 x5 t) 0) x6 x7 j) 0 := by
  have el : ∀ k : Fin 128, lidx_main_v25 (ix2 e j) k = ix2 e k := fun k =>
    funext fun a => Fin.ext (by match a with | ⟨0, _⟩ => rfl | ⟨1, _⟩ => rfl)
  have er : ∀ k : Fin 128, ridx_main_v25 (ix2 e j) k = ix2 k j := fun k =>
    funext fun a => Fin.ext (by match a with | ⟨0, _⟩ => rfl | ⟨1, _⟩ => rfl)
  have eb : idx_main_v26 (idx_main_v27 (ix2 e j)) = ix1 j :=
    funext fun a => Fin.ext (by match a with | ⟨0, _⟩ => rfl)
  rw [val_main_v29_apply, val_main_v28_apply, val_main_v25_apply, val_main_v27_apply, val_main_v26_apply,
    val_main_call1_v0_apply, val_main_call1_cst_apply]
  simp only [el, er, eb, v24_apply, Ideal.addf_def, Ideal.maximumf_def, Ideal.ofBits_def, Ideal.ofBits_zero_f32]
  rfl

/-- The third layer, at row `e`, column `j`. -/
theorem v33_apply (x0 : FVec Ideal S32000x256 .f32) (x1 : FVec Ideal S512000x128 .f32) (x2 : IVec S2x512000 32) (x3 : FVec Ideal S256x128 .f32) (x4 : FVec Ideal S384x128 .f32) (x5 : FVec Ideal S128 .f32) (x6 : FVec Ideal S128x128 .f32) (x7 : FVec Ideal S128 .f32) (x8 : FVec Ideal S128x128 .f32) (x9 : FVec Ideal S128 .f32) (e : Fin 512000) (j : Fin 128) :
    val_main_v33 (F := Ideal) x0 x1 x2 x3 x4 x5 x6 x7 x8 x9 (ix2 e j)
      = affine (fun t => max (affine (fun t => max (affine (cat3 (row (a := 512000) (b := 128) (val_main_v11 (F := Ideal) x0 x2 x3) e) (row (a := 512000) (b := 128) (val_main_v18 (F := Ideal) x0 x2 x3) e) (row (a := 512000) (b := 128) x1 e)) x4 x5 t) 0) x6 x7 t) 0) x8 x9 j := by
  have el : ∀ k : Fin 128, lidx_main_v30 (ix2 e j) k = ix2 e k := fun k =>
    funext fun a => Fin.ext (by match a with | ⟨0, _⟩ => rfl | ⟨1, _⟩ => rfl)
  have er : ∀ k : Fin 128, ridx_main_v30 (ix2 e j) k = ix2 k j := fun k =>
    funext fun a => Fin.ext (by match a with | ⟨0, _⟩ => rfl | ⟨1, _⟩ => rfl)
  have eb : idx_main_v31 (idx_main_v32 (ix2 e j)) = ix1 j :=
    funext fun a => Fin.ext (by match a with | ⟨0, _⟩ => rfl)
  rw [val_main_v33_apply, val_main_v30_apply, val_main_v32_apply, val_main_v31_apply]
  simp only [el, er, eb, v29_apply, Ideal.addf_def]
  rfl

/-- The sum before normalisation at row `e`, column `q`: the pre-normalisation features of row `e` of the two gathers and the
    edge features. -/
theorem v34_apply (x0 : FVec Ideal S32000x256 .f32) (x1 : FVec Ideal S512000x128 .f32) (x2 : IVec S2x512000 32)
    (x3 : FVec Ideal S256x128 .f32) (x4 : FVec Ideal S384x128 .f32) (x5 : FVec Ideal S128 .f32) (x6 : FVec Ideal S128x128 .f32)
    (x7 : FVec Ideal S128 .f32) (x8 : FVec Ideal S128x128 .f32) (x9 : FVec Ideal S128 .f32) (e : Fin 512000) (q : Fin 128) :
    val_main_v34 (F := Ideal) x0 x1 x2 x3 x4 x5 x6 x7 x8 x9 (ix2 e q)
      = preNorm (row (a := 512000) (b := 128) (val_main_v11 (F := Ideal) x0 x2 x3) e) (row (a := 512000) (b := 128) (val_main_v18 (F := Ideal) x0 x2 x3) e)
          (row (a := 512000) (b := 128) x1 e) x4 x5 x6 x7 x8 x9 q := by
  rw [val_main_v34_apply, v33_apply, Ideal.addf_def]
  rfl

end Cert.ReferenceIdeal.RefMlp

end
-- ==== Proof.RefValue.lean ====
/-
  The reference's normalisation read at an index, and with it the whole result: the edge update of the whole arrays, the two
  row arrays being its two gathers of the matrix product.
-/
import proofs.«419849_j7627861918026_1_alg».proof.Proof.Gen.ReferenceIdeal.Read
import proofs.«419849_j7627861918026_1_alg».proof.Proof.Spec
import proofs.«419849_j7627861918026_1_alg».proof.Proof.RefMlp
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Cert.ReferenceIdeal.Read Cert.EdgeSpec
open Idealize.ShloMosaic Idealize.ShloMosaic.TcCoe Idealize.ShloMosaic.ValueIdx Idealize.SL.Sem

section RowStatistics

variable (x0 : FVec Ideal S32000x256 .f32) (x1 : FVec Ideal S512000x128 .f32) (x2 : IVec S2x512000 32)
    (x3 : FVec Ideal S256x128 .f32) (x4 : FVec Ideal S384x128 .f32) (x5 : FVec Ideal S128 .f32) (x6 : FVec Ideal S128x128 .f32)
    (x7 : FVec Ideal S128 .f32) (x8 : FVec Ideal S128x128 .f32) (x9 : FVec Ideal S128 .f32)

/-! The index maps of the layout stages, at explicit coordinates.  A column `[512000, 1]` broadcast along a row is read at
    `(e, 0)` from every entry `(e, q)`; the column entry `(e, 0)` is entry `e` of the vector of row sums; the `k`-th summand
    of row sum `e` is entry `(e, k)`; a vector of length 128 laid as one row `[1, 128]` and repeated down the rows is read at
    `q` from every entry `(e, q)`. -/

theorem col_of_entry_v39 (e : Fin 512000) (q : Fin 128) : idx_main_v39 (ix2 e q) = ix2 e (0 : Fin 1) :=
  funext fun a => Fin.ext (by match a with | ⟨0, _⟩ => rfl | ⟨1, _⟩ => rfl)
theorem col_of_entry_v46 (e : Fin 512000) (q : Fin 128) : idx_main_v46 (ix2 e q) = ix2 e (0 : Fin 1) :=
  funext fun a => Fin.ext (by match a with | ⟨0, _⟩ => rfl | ⟨1, _⟩ => rfl)
theorem col_of_entry_v51 (e : Fin 512000) (q : Fin 128) : idx_main_v51 (ix2 e q) = ix2 e (0 : Fin 1) :=
  funext fun a => Fin.ext (by match a with | ⟨0, _⟩ => rfl | ⟨1, _⟩ => rfl)
theorem sum_of_col_v36 (e : Fin 512000) : idx_main_v36 (ix2 e (0 : Fin 1)) = ix1 e :=
  funext fun a => Fin.ext (by match a with | ⟨0, _⟩ => rfl)
theorem sum_of_col_v43 (e : Fin 512000) : idx_main_v43 (ix2 e (0 : Fin 1)) = ix1 e :=
  funext fun a => Fin.ext (by match a with | ⟨0, _⟩ => rfl)
theorem summand_v35 (e : Fin 512000) (k : Fin 128) : idx_main_v35 (ix1 e) k = ix2 e k :=
  funext fun a => Fin.ext (by match a with | ⟨0, _⟩ => rfl | ⟨1, _⟩ => rfl)
theorem summand_v42 (e : Fin 512000) (k : Fin 128) : idx_main_v42 (ix1 e) k = ix2 e k :=
  funext fun a => Fin.ext (by match a with | ⟨0, _⟩ => rfl | ⟨1, _⟩ => rfl)
theorem lane_of_entry_v54 (e : Fin 512000) (q : Fin 128) : idx_main_v54 (ix2 e q) = ix2 (0 : Fin 1) q :=
  funext fun a => Fin.ext (by match a with | ⟨0, _⟩ => rfl | ⟨1, _⟩ => rfl)
theorem lane_of_entry_v57 (e : Fin 512000) (q : Fin 128) : idx_main_v57 (ix2 e q) = ix2 (0 : Fin 1) q :=
  funext fun a => Fin.ext (by match a with | ⟨0, _⟩ => rfl | ⟨1, _⟩ => rfl)
theorem lane_v53 (q : Fin 128) : idx_main_v53 (ix2 (0 : Fin 1) q) = ix1 q :=
  funext fun a => Fin.ext (by match a with | ⟨0, _⟩ => rfl)
theorem lane_v56 (q : Fin 128) : idx_main_v56 (ix2 (0 : Fin 1) q) = ix1 q :=
  funext fun a => Fin.ext (by match a with | ⟨0, _⟩ => rfl)

/-- The mean of row `e`: the sum of its 128 entries divided by the constant 128. -/
theorem mean_apply (e : Fin 512000) :
    val_main_v38 (F := Ideal) x0 x1 x2 x3 x4 x5 x6 x7 x8 x9 (ix2 e (0 : Fin 1))
      = Ideal.div (∑ j : Fin 128, val_main_v34 (F := Ideal) x0 x1 x2 x3 x4 x5 x6 x7 x8 x9 (ix2 e j)) c128 := by
  rw [val_main_v38_apply, val_main_v36_apply, val_main_v37_apply, val_main_cst_3_apply, sum_of_col_v36,
    val_main_v35_apply, val_main_cst_apply]
  simp only [summand_v35, Ideal.hostDivf_def, Ideal.ofBits_def, Ideal.ofBits_zero_f32, zero_add]
  rfl

/-- The mean square deviation of row `e`: the sum of the squared differences from the mean, divided by the constant 128. -/
theorem var_apply (e : Fin 512000) :
    val_main_v45 (F := Ideal) x0 x1 x2 x3 x4 x5 x6 x7 x8 x9 (ix2 e (0 : Fin 1))
      = Ideal.div (∑ j : Fin 128,
          (val_main_v34 (F := Ideal) x0 x1 x2 x3 x4 x5 x6 x7 x8 x9 (ix2 e j)
              - Ideal.div (∑ j : Fin 128, val_main_v34 (F := Ideal) x0 x1 x2 x3 x4 x5 x6 x7 x8 x9 (ix2 e j)) c128)
            * (val_main_v34 (F := Ideal) x0 x1 x2 x3 x4 x5 x6 x7 x8 x9 (ix2 e j)
              - Ideal.div (∑ j : Fin 128, val_main_v34 (F := Ideal) x0 x1 x2 x3 x4 x5 x6 x7 x8 x9 (ix2 e j)) c128)) c128 := by
  rw [val_main_v45_apply, val_main_v43_apply, val_main_v44_apply, val_main_cst_5_apply, sum_of_col_v43,
    val_main_v42_apply, val_main_cst_4_apply]
  simp only [summand_v42, val_main_v41_apply, val_main_v40_apply, val_main_v39_apply, col_of_entry_v39, mean_apply,
    Ideal.hostDivf_def, Ideal.mulf_def, Ideal.subf_def, Ideal.ofBits_def, Ideal.ofBits_zero_f32, zero_add]
  rfl

end RowStatistics

/-- The reference's result at row `e`, column `q`: the normalised row `e` of the sum before normalisation. -/
theorem v58_apply (x0 : FVec Ideal S32000x256 .f32) (x1 : FVec Ideal S512000x128 .f32) (x2 : IVec S2x512000 32)
    (x3 : FVec Ideal S256x128 .f32) (x4 : FVec Ideal S384x128 .f32) (x5 : FVec Ideal S128 .f32) (x6 : FVec Ideal S128x128 .f32)
    (x7 : FVec Ideal S128 .f32) (x8 : FVec Ideal S128x128 .f32) (x9 x10 x11 : FVec Ideal S128 .f32) (e : Fin 512000) (q : Fin 128) :
    val_main_v58 (F := Ideal) x0 x1 x2 x3 x4 x5 x6 x7 x8 x9 x10 x11 (ix2 e q)
      = normRow (row (a := 512000) (b := 128) (val_main_v34 (F := Ideal) x0 x1 x2 x3 x4 x5 x6 x7 x8 x9) e) x10 x11 q := by
  rw [val_main_v58_apply, val_main_v55_apply, val_main_v52_apply, val_main_v47_apply, val_main_v46_apply, val_main_v51_apply,
    val_main_v50_apply, val_main_v49_apply, val_main_v48_apply, val_main_cst_6_apply, val_main_v54_apply, val_main_v53_apply,
    val_main_v57_apply, val_main_v56_apply, col_of_entry_v46, col_of_entry_v51, lane_of_entry_v54, lane_v53, lane_of_entry_v57,
    lane_v56, mean_apply, var_apply]
  simp only [Ideal.addf_def, Ideal.subf_def, Ideal.mulf_def, Ideal.hostUnary_rsqrt_def, Ideal.ofBits_def]
  unfold normRow row eps
  rfl

/-- The reference's result is the edge update of its two gathers and the edge features. -/
theorem result_eq (x0 : FVec Ideal S32000x256 .f32) (x1 : FVec Ideal S512000x128 .f32) (x2 : IVec S2x512000 32)
    (x3 : FVec Ideal S256x128 .f32) (x4 : FVec Ideal S384x128 .f32) (x5 : FVec Ideal S128 .f32) (x6 : FVec Ideal S128x128 .f32)
    (x7 : FVec Ideal S128 .f32) (x8 : FVec Ideal S128x128 .f32) (x9 x10 x11 : FVec Ideal S128 .f32) :
    val_main_v58 (F := Ideal) x0 x1 x2 x3 x4 x5 x6 x7 x8 x9 x10 x11
      = edgeOut (n := 512000) (val_main_v11 (F := Ideal) x0 x2 x3) (val_main_v18 (F := Ideal) x0 x2 x3) x1 x4 x5 x6 x7 x8 x9 x10 x11 := by
  funext i
  obtain ⟨e, q, rfl⟩ : ∃ (e : Fin 512000) (q : Fin 128), i = ix2 e q := ⟨i 0, i 1, eq_ix2 i⟩
  rw [v58_apply, edgeOut_ix2]
  unfold rowOut
  congr 1
  funext j
  exact RefMlp.v34_apply x0 x1 x2 x3 x4 x5 x6 x7 x8 x9 e j

end Cert.ReferenceIdeal.RefValue

end
-- ==== Proof.lean ====
/-
  The certificate's claims, assembled.

  The kernel program computes, for every edge, a three-layer perceptron of the joined scalar features of its two end atoms
  and its own features, adds the edge's features back, and normalises each row of 128 entries. It does so in two pipelined
  regions (the atoms' scalar features as a matrix product; then the edge update, block by block of 4096 edges) with two row
  gathers on the host in between. The reference does the same with whole-array host operations. At the exact values every
  change of float format is the identity and every matrix product and row sum is a plain finite sum, so both programs
  compute the same function of the argument arrays, entry by entry — provided every edge index is in the atoms' range
  0 … 31999: outside it the kernel's gather fills a row with a fixed value where the reference's clamps the index. That range
  is the last conjunct of the precondition.
-/
import proofs.«419849_j7627861918026_1_alg».proof.Defs
import proofs.«419849_j7627861918026_1_alg».proof.Proof.Gen.Kernel
import proofs.«419849_j7627861918026_1_alg».proof.Proof.Gen.Kernel.Skeleton
import proofs.«419849_j7627861918026_1_alg».proof.Proof.Gen.Kernel.Launch
import proofs.«419849_j7627861918026_1_alg».proof.Proof.Gen.Kernel.Points
import proofs.«419849_j7627861918026_1_alg».proof.Proof.Gen.Kernel.Frame
import proofs.«419849_j7627861918026_1_alg».proof.Proof.Gen.KernelIdeal
import proofs.«419849_j7627861918026_1_alg».proof.Proof.Gen.KernelIdeal.Skeleton
import proofs.«419849_j7627861918026_1_alg».proof.Proof.Gen.KernelIdeal.Launch
import proofs.«419849_j7627861918026_1_alg».proof.Proof.Gen.KernelIdeal.Points
import proofs.«419849_j7627861918026_1_alg».proof.Proof.Gen.KernelIdeal.Frame
import proofs.«419849_j7627861918026_1_alg».proof.Proof.Gen.ReferenceIdeal
import proofs.«419849_j7627861918026_1_alg».proof.Proof.Gen.Pre_finite_inputs
import proofs.«419849_j7627861918026_1_alg».proof.Proof.Gen.ReferenceIdeal.Run
import proofs.«419849_j7627861918026_1_alg».proof.Proof.Gen.ReferenceIdeal.Read
import Idealize.ShloMosaic.Adequacy
import Idealize.ShloMosaic.Init

import proofs.«419849_j7627861918026_1_alg».proof.Proof.Spec
import proofs.«419849_j7627861918026_1_alg».proof.Proof.KernelRun
import proofs.«419849_j7627861918026_1_alg».proof.Proof.KernelValue
import proofs.«419849_j7627861918026_1_alg».proof.Proof.PreDecode
import proofs.«419849_j7627861918026_1_alg».proof.Proof.RefValue

set_option maxRecDepth 16384

noncomputable section

namespace Cert.Proof

open Idealize.ShloMosaic Idealize.ShloMosaic.TcCoe Idealize.SL.Sem Cert.EdgeSpec

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization pass rewrote nothing. -/
theorem preserves : Cert.preserves_Kernel_KernelIdeal := trivial

/-- The reference's first gather is the kernel's: the same rows of the same matrix product at the same start indices. -/
theorem gather0_eq (a0 : FVec Ideal Cert.ReferenceIdeal.S32000x256 .f32) (a2 : IVec Cert.ReferenceIdeal.S2x512000 32)
    (a3 : FVec Ideal Cert.ReferenceIdeal.S256x128 .f32) :
    Cert.ReferenceIdeal.Read.val_main_v11 (F := Ideal) a0 a2 a3
      = Host.gather Cert.KernelIdeal.gather_S32000x128_S512000x1_S512000x128_1_0_n_n_0_1_1128 (lin a0 a3) (Cert.KernelIdeal.HostStretch.col0 a2) := by
  unfold Cert.ReferenceIdeal.Read.val_main_v11
  rw [Cert.ReferenceIdeal.RefMlp.lin_eq]
  rfl

/-- The same for the second gather. -/
theorem gather1_eq (a0 : FVec Ideal Cert.ReferenceIdeal.S32000x256 .f32) (a2 : IVec Cert.ReferenceIdeal.S2x512000 32)
    (a3 : FVec Ideal Cert.ReferenceIdeal.S256x128 .f32) :
    Cert.ReferenceIdeal.Read.val_main_v18 (F := Ideal) a0 a2 a3
      = Host.gather Cert.KernelIdeal.gather_S32000x128_S512000x1_S512000x128_1_0_n_n_0_1_1128 (lin a0 a3) (Cert.KernelIdeal.HostStretch.col1 a2) := by
  unfold Cert.ReferenceIdeal.Read.val_main_v18
  rw [Cert.ReferenceIdeal.RefMlp.lin_eq]
  rfl

/-- From memories that agree on the arguments and satisfy the precondition, both programs end with the edge update of the
    same arrays in their result buffers. -/
theorem algebraic : Cert.algebraic_KernelIdeal_ReferenceIdeal := by
  intro m ρ m' ρ' hpre hagree
  refine ⟨fun c => Cert.KernelIdeal.Gen.W5 m ρ c (Proc.devRef .tc Cert.KernelIdeal.main_v7), Cert.KernelIdeal.Run.run_result m ρ, ?_⟩
  refine (θ_run Cert.ReferenceIdeal.defs _ _).mono (fun _ h c => ⟨(h c).1.trans ?_, (h c).2⟩)
    (Cert.ReferenceIdeal.Value.run (F := Ideal) m' ρ')
  have hr : ∀ i, Cert.KernelIdeal.HostStretch.InRange (m ((c : Thread Cert.KernelIdeal.nD Cert.KernelIdeal.τ).loc Cert.KernelIdeal.main_arg2) i) :=
    fun i => Cert.PreDecode.idx_in_range _ _ _ _ _ _ _ _ _ _ _ _ (hpre c) i
  rw [Cert.ReferenceIdeal.Read.val_main_v58_eq, Cert.ReferenceIdeal.RefValue.result_eq, gather0_eq, gather1_eq]
  obtain ⟨e0, e1, e2, e3, e4, e5, e6, e7, e8, e9, e10, e11⟩ := hagree c
  rw [e0, e1, e2, e3, e4, e5, e6, e7, e8, e9, e10, e11]
  exact (Cert.KernelIdeal.KernelValue.result m ρ c hr).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
